-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x256 : Shape := ⟨4, ![8, 512, 128, 256]⟩
abbrev S8x19x128x256 : Shape := ⟨4, ![8, 19, 128, 256]⟩
abbrev S_ : Shape := ⟨0, ![]⟩

class Facts : Prop where
  bcast_S_S8x512x128x256 : S_.BroadcastsInDim S8x512x128x256 (![] : Fin 0 → Fin S8x512x128x256.rank)
  reducesTo_S8x512x128x256_S_d0_1_2_3 : S8x512x128x256.ReducesTo [0, 1, 2, 3] S_
  h_S_ : 0 < S_.numel
  bcast_S_S8x19x128x256 : S_.BroadcastsInDim S8x19x128x256 (![] : Fin 0 → Fin S8x19x128x256.rank)
  reducesTo_S8x19x128x256_S_d0_1_2_3 : S8x19x128x256.ReducesTo [0, 1, 2, 3] S_

variable [Facts]

def fn {F : FTy → Type} [FloatOps F] (main_arg0 : FVec F S8x512x128x256 .f32) (main_arg1 : FVec F S8x19x128x256 .f32) : IVec S_ 1 :=
  let main_v0 : FVec F S8x512x128x256 .f32 := Host.absf main_arg0
  let main_cst : FVec F S_ .f32 := constant S_ .f32 0x7F800000#32
  let main_v1 : FVec F S8x512x128x256 .f32 := broadcastInDim S8x512x128x256 ![] bcast_S_S8x512x128x256 main_cst
  let main_v2 : IVec S8x512x128x256 1 := cmpf .olt main_v0 main_v1
  let main_c : IVec S_ 1 := constantI S_ 1 1#1
  let main_v3 : IVec S_ 1 := (fun x v => Host.reduce IntOp.andi x v reducesTo_S8x512x128x256_S_d0_1_2_3 h_S_) main_v2 main_c
  let main_v4 : FVec F S8x19x128x256 .f32 := Host.absf main_arg1
  let main_cst_0 : FVec F S_ .f32 := constant S_ .f32 0x7F800000#32
  let main_v5 : FVec F S8x19x128x256 .f32 := broadcastInDim S8x19x128x256 ![] bcast_S_S8x19x128x256 main_cst_0
  let main_v6 : IVec S8x19x128x256 1 := cmpf .olt main_v4 main_v5
  let main_c_1 : IVec S_ 1 := constantI S_ 1 1#1
  let main_v7 : IVec S_ 1 := (fun x v => Host.reduce IntOp.andi x v reducesTo_S8x19x128x256_S_d0_1_2_3 h_S_) main_v6 main_c_1
  let main_v8 : IVec S_ 1 := andi main_v3 main_v7
  main_v8
-- ==== Kernel.lean ====
abbrev S8x512x128x256 : Shape := ⟨4, ![8, 512, 128, 256]⟩
abbrev S8x19x128x256 : Shape := ⟨4, ![8, 19, 128, 256]⟩
abbrev S8x19x32768 : Shape := ⟨3, ![8, 19, 32768]⟩
abbrev S8x512x32768 : Shape := ⟨3, ![8, 512, 32768]⟩
abbrev S8x512x19 : Shape := ⟨3, ![8, 512, 19]⟩
abbrev S1x19x8192 : Shape := ⟨3, ![1, 19, 8192]⟩
abbrev S1x512x8192 : Shape := ⟨3, ![1, 512, 8192]⟩
abbrev S1x512x19 : Shape := ⟨3, ![1, 512, 19]⟩
abbrev S19x1 : Shape := ⟨2, ![19, 1]⟩
abbrev S19x512 : Shape := ⟨2, ![19, 512]⟩
abbrev S19x8192 : Shape := ⟨2, ![19, 8192]⟩
abbrev S19 : Shape := ⟨1, ![19]⟩
abbrev S1x128x8192 : Shape := ⟨3, ![1, 128, 8192]⟩
abbrev S128x8192 : Shape := ⟨2, ![128, 8192]⟩
abbrev S19x128 : Shape := ⟨2, ![19, 128]⟩
abbrev S512x19 : Shape := ⟨2, ![512, 19]⟩
abbrev S8x512x19x1 : Shape := ⟨4, ![8, 512, 19, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x512x128x256, .f32⟩
  | .hbm, ⟨1, _⟩ => ⟨S8x19x128x256, .f32⟩
  | .hbm, ⟨2, _⟩ => ⟨S8x19x32768, .f32⟩
  | .hbm, ⟨3, _⟩ => ⟨S8x512x32768, .f32⟩
  | .hbm, ⟨4, _⟩ => ⟨S8x512x19, .f32⟩
  | .hbm, ⟨5, _⟩ => ⟨S8x512x19x1, .f32⟩
  | .local _ .vmem, ⟨0, _⟩ => ⟨S1x19x8192, .f32⟩
  | .local _ .vmem, ⟨1, _⟩ => ⟨S1x19x8192, .f32⟩
  | .local _ .vmem, ⟨2, _⟩ => ⟨S1x512x8192, .f32⟩
  | .local _ .vmem, ⟨3, _⟩ => ⟨S1x512x8192, .f32⟩
  | .local _ .vmem, ⟨4, _⟩ => ⟨S1x512x19, .f32⟩
  | .local _ .vmem, ⟨5, _⟩ => ⟨S1x512x19, .f32⟩
  | .local _ .vmem, ⟨6, _⟩ => ⟨S19x1, .f32⟩
  | .local _ .vmem, ⟨7, _⟩ => ⟨S19x1, .f32⟩
  | .local _ .vmem, ⟨8, _⟩ => ⟨S19x512, .f32⟩
  | _, _ => ⟨S8x512x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_17 : BitVec 32 := 0#32
  let c4_i32 : BitVec 32 := 4#32
  let v32 : BitVec 32 := Scalar.addi c0_i32_17 c4_i32
  let c1_i32 : BitVec 32 := 1#32
  ⟨c0_i32_17, v32, c1_i32⟩
def k0_mult1 (k0_t1 : Fin k0_t1_loop.trips) : BitVec 32 :=
  let c0_i32_17 : BitVec 32 := 0#32
  let c1_i32 : BitVec 32 := 1#32
  let arg8 : BitVec 32 := Scf.iv c0_i32_17 c1_i32 k0_t1
  let c128_i32 : BitVec 32 := 128#32
  let v39 : BitVec 32 := Scalar.muli arg8 c128_i32
  v39
def k0_off1 (k0_t1 : Fin k0_t1_loop.trips) : Fin 3 → Nat :=
  let c0_22 : Index := 0#32
  let c0_i32_17 : BitVec 32 := 0#32
  let c1_i32 : BitVec 32 := 1#32
  let arg8 : BitVec 32 := Scf.iv c0_i32_17 c1_i32 k0_t1
  let c128_i32 : BitVec 32 := 128#32
  let v39 : BitVec 32 := Scalar.muli arg8 c128_i32
  let v40 : BitVec 32 := v39
  let v41 : Index := Scalar.indexCast v40
  let c0_23 : Index := 0#32
  ![0, v41.toNat, 0]
def k0_off2 (k0_t1 : Fin k0_t1_loop.trips) : Fin 2 → Nat :=
  let c0_25 : Index := 0#32
  let c0_i32_17 : BitVec 32 := 0#32
  let c1_i32 : BitVec 32 := 1#32
  let arg8 : BitVec 32 := Scf.iv c0_i32_17 c1_i32 k0_t1
  let c128_i32 : BitVec 32 := 128#32
  let v39 : BitVec 32 := Scalar.muli arg8 c128_i32
  let v40 : BitVec 32 := v39
  let v46 : Index := Scalar.indexCast v40
  ![0, v46.toNat]
def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_21 : BitVec 32 := 0#32
  let v38 : BitVec 1 := Scalar.cmpi .ne v37 c0_i32_21
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x19x128x256_S8x19x32768 : S8x19x128x256.ShapeCasts S8x19x32768
  shapeCasts_S8x512x128x256_S8x512x32768 : S8x512x128x256.ShapeCasts S8x512x32768
  inb_S19x1_S19x1_0_0 : ∀ a, (![0, 0] : Fin 2 → Nat) a + S19x1.size a ≤ S19x1.size a
  h_S19x1 : 0 < S19x1.numel
  shapeCasts_S19x1_S19x1 : S19x1.ShapeCasts S19x1
  inb_S19x512_S19x512_0_0 : ∀ a, (![0, 0] : Fin 2 → Nat) a + S19x512.size a ≤ S19x512.size a
  h_S19x512 : 0 < S19x512.numel
  shapeCasts_S19x512_S19x512 : S19x512.ShapeCasts S19x512
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S19x8192 : S1x19x8192.ShapeCasts S19x8192
  reduces_S19x8192_S19 : S19x8192.Reduces [1] S19
  shapeCasts_S19_S19x1 : S19.ShapeCasts S19x1
  broadcasts_S19x1_S19x8192 : S19x1.Broadcasts S19x8192
  bitsLt_bf16_f32 : FTy.bits .bf16 < FTy.bits .f32
  broadcasts_S19x1_S19x512 : S19x1.Broadcasts S19x512
  h_S1x128x8192 : 0 < S1x128x8192.numel
  shapeCasts_S1x128x8192_S128x8192 : S1x128x8192.ShapeCasts S128x8192
  h_S19x128 : 0 < S19x128.numel
  shapeCasts_S19x128_S19x128 : S19x128.ShapeCasts S19x128
  transposes_S19x512_p1_0_S512x19 : S19x512.Transposes [1, 0] S512x19
  inb_S1x512x19_S1x512x19_0_0_0 : ∀ a, (![0, 0, 0] : Fin 3 → Nat) a + S1x512x19.size a ≤ S1x512x19.size a
  h_S1x512x19 : 0 < S1x512x19.numel
  shapeCasts_S1x512x19_S512x19 : S1x512x19.ShapeCasts S512x19
  shapeCasts_S512x19_S1x512x19 : S512x19.ShapeCasts S1x512x19
  bcast_S8x512x19_S8x512x19x1_0_1_2 : S8x512x19.BroadcastsInDim S8x512x19x1 (![0, 1, 2] : Fin 3 → Fin S8x512x19x1.rank)
  dot_S19x8192_S128x8192_S19x128_1_1_0_0_n_n_wf : DotDims.WF S19x8192 S128x8192 S19x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x8192.size a ≤ S1x512x8192.size a
  k0_off2_inb : ∀ k0_t1 : Fin k0_t1_loop.trips, ∀ a, (k0_off2 k0_t1) a + S19x128.size a ≤ S19x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x8192.size a ≤ S8x19x32768.size a
  hwx0_0 : ∀ i : grid0.Coords, EltTy.bits .f32 = 32 ∨ (Rect.block (s := S8x19x32768) S1x19x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8192.size a ≤ S8x512x32768.size a
  hwx0_1 : ∀ i : grid0.Coords, EltTy.bits .f32 = 32 ∨ (Rect.block (s := S8x512x32768) S1x512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x19.size a ≤ S8x512x19.size a
  hwx0_2 : ∀ i : grid0.Coords, EltTy.bits .f32 = 32 ∨ (Rect.block (s := S8x512x19) S1x512x19.size (cc0_transform_2 i) (hinb0_2 i)).WholeWords (EltTy.packing .f32)

variable [Facts₀]

def dot_S19x8192_S128x8192_S19x128_1_1_0_0_n_n : DotDims S19x8192 S128x8192 S19x128 where
  lhsContracting := [1]
  rhsContracting := [1]
  lhsNonContracting := [0]
  rhsNonContracting := [0]
  lhsBatch := []
  rhsBatch := []
  wf := dot_S19x8192_S128x8192_S19x128_1_1_0_0_n_n_wf

abbrev win0_0 : Pipeline.Window sig grid0 :=
  Pipeline.Window.ofSpec (Memref.whole main_v0) S1x19x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x128x256 : Shape := ⟨4, ![8, 512, 128, 256]⟩
abbrev S8x19x128x256 : Shape := ⟨4, ![8, 19, 128, 256]⟩
abbrev S8x19x32768 : Shape := ⟨3, ![8, 19, 32768]⟩
abbrev S8x512x32768 : Shape := ⟨3, ![8, 512, 32768]⟩
abbrev S_ : Shape := ⟨0, ![]⟩
abbrev S8x19 : Shape := ⟨2, ![8, 19]⟩
abbrev S8x19x1 : Shape := ⟨3, ![8, 19, 1]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x512x128x256, .f32⟩
  | .hbm, ⟨1, _⟩ => ⟨S8x19x128x256, .f32⟩
  | .hbm, ⟨2, _⟩ => ⟨S8x19x32768, .f32⟩
  | .hbm, ⟨3, _⟩ => ⟨S8x512x32768, .f32⟩
  | .hbm, ⟨4, _⟩ => ⟨S_, .f32⟩
  | .hbm, ⟨5, _⟩ => ⟨S8x19x32768, .f32⟩
  | .hbm, ⟨6, _⟩ => ⟨S8x19x32768, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S8x19x1, .f32⟩
  | .hbm, ⟨13, _⟩ => ⟨S8x19x32768, .f32⟩
  | .hbm, ⟨14, _⟩ => ⟨S8x19x32768, .f32⟩
  | .hbm, ⟨15, _⟩ => ⟨S8x19x32768, .f32⟩
  | .hbm, ⟨16, _⟩ => ⟨S_, .f32⟩
  | .hbm, ⟨17, _⟩ => ⟨S8x19, .f32⟩
  | .hbm, ⟨18, _⟩ => ⟨S8x19x1, .f32⟩
  | .hbm, ⟨19, _⟩ => ⟨S8x19x32768, .f32⟩
  | .hbm, ⟨20, _⟩ => ⟨S8x19x32768, .f32⟩
  | .hbm, ⟨21, _⟩ => ⟨S8x19x512, .f32⟩
  | .hbm, ⟨22, _⟩ => ⟨S8x512x19, .f32⟩
  | .hbm, ⟨23, _⟩ => ⟨S8x512x19x1, .f32⟩
  | _, _ => ⟨S8x512x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x19x128x256_S8x19x32768 : S8x19x128x256.ShapeCasts S8x19x32768
  shapeCasts_S8x512x128x256_S8x512x32768 : S8x512x128x256.ShapeCasts S8x512x32768
  bcast_S_S8x19x32768 : S_.BroadcastsInDim S8x19x32768 (![] : Fin 0 → Fin S8x19x32768.rank)
  reducesTo_S8x19x32768_S8x19_d2 : S8x19x32768.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x32768_0_1_2 : S8x19x1.BroadcastsInDim S8x19x32768 (![0, 1, 2] : Fin 3 → Fin S8x19x32768.rank)
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x32768_S8x512x32768_S8x19x512_2_2_1_1_0_0_wf : DotDims.WF S8x19x32768 S8x512x32768 S8x19x512 [2] [2] [1] [1] [0] [0]

variable [Facts₀]

def dot_S8x19x32768_S8x512x32768_S8x19x512_2_2_1_1_0_0 : DotDims S8x19x32768 S8x512x32768 S8x19x512 where
  lhsContracting := [2]
  rhsContracting := [2]
  lhsNonContracting := [1]
  rhsNonContracting := [1]
  lhsBatch := [0]
  rhsBatch := [0]
  wf := dot_S8x19x32768_S8x512x32768_S8x19x512_2_2_1_1_0_0_wf

class Facts : Prop extends Facts₀ where

variable [Facts]
-- ==== Proof.K.Runs.lean ====
/-
  What the three runs of the pooling kernel's body share. The grid is 8 batches by 4 tiles of the spatial axis, the tile
  index innermost, so point t is tile t % 4 of batch t / 4. The body resets its three scratch buffers (running maximum,
  running normaliser, running weighted sums) on a batch's first tile, updates them on every tile, and on the batch's last
  tile divides the sums by the normaliser and stores the transposed quotient into the output block. Here: the two
  conditions in closed form over the grid, where the output window is idle or written back, the memrefs the body is called
  with, and the region invariant with the three scratch buffers spelled out.
-/
import proofs.«431202_j4664334483623_3_alg».proof.Proof.Gen.Kernel.Frame
import proofs.«431202_j4664334483623_3_alg».proof.Proof.Gen.Kernel.Loops
import proofs.«431202_j4664334483623_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the batch's first tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the batch's last tile": the body's second conditional. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- On a batch's last tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x19 .f32 := (Memref.whole cc0_stg2_0 : Memref sig .tc .vmem S1x512x19 .f32).view
/-- Each window's current staging memref at point t, and its wholeness. -/
abbrev ms0_0 (t : Fin cfg0.N) : Memref sig .tc .vmem S1x19x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x19 .f32 := win0_2.stage (cfg0.slots t 2)
abbrev hs0_2 (t : Fin cfg0.N) : (ms0_2 t).IsWhole := hstage0_2 ((cfg0.slots t 2).cast nbuf0_2)
/-- The three scratch buffers: the running maximum, the running normaliser, the running weighted sums. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view

/-- The region invariant "every scratch buffer at some contents, the generator register at some state", with the three
    scratch buffers as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.K.RunA.lean ====
/-
  The body's run on a batch's first tile: the three scratch buffers are reset (the running maximum to -inf, the normaliser
  and the weighted sums to zero) whatever they held, then updated as on every tile; the output block is left untouched.
  What the stores leave in the three scratch buffers is given as pieces (last first), with the proof that the body runs to
  its end on whole memrefs holding the two input blocks, the output's at contents handed back as they were.
-/
import proofs.«431202_j4664334483623_3_alg».proof.Proof.K.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x8192 .f32) (x1 : Vec F S1x512x8192 .f32) :
    Σ' (LS0 : List (View.Piece (Elt F) S19x1 .f32)) (LS1 : List (View.Piece (Elt F) S19x1 .f32)), { LS2 : List (View.Piece (Elt F) S19x512 .f32) //
      ∀ (xi2 : Vec F S1x512x19 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun xi2 E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.K.RunB.lean ====
/-
  The body's run on a middle tile of a batch (neither the first nor the last): nothing is reset and the output block is
  left untouched; the running maximum, normaliser and weighted sums are read at what the tile before left and stored back
  updated, the weighted sums through the loop over the four channel chunks. What the stores leave in the three scratch
  buffers is given as pieces (last first), with the proof that the body runs to its end.
-/
import proofs.«431202_j4664334483623_3_alg».proof.Proof.K.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x19x8192 .f32) (x1 : Vec F S1x512x8192 .f32) (xs0 : Vec F S19x1 .f32) (xs1 : Vec F S19x1 .f32) (xs2 : Vec F S19x512 .f32) :
    Σ' (LS0 : List (View.Piece (Elt F) S19x1 .f32)) (LS1 : List (View.Piece (Elt F) S19x1 .f32)), { LS2 : List (View.Piece (Elt F) S19x512 .f32) //
      ∀ (xi2 : Vec F S1x512x19 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun xi2 E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.K.RunC.lean ====
/-
  The body's run on a batch's last tile: the scratch buffers are updated as on every tile, then the weighted sums are
  divided by the normaliser, transposed, and stored over the whole output block. What the stores leave in the output's
  staging memref and in the three scratch buffers is given as pieces (last first), with the proof that the body runs to
  its end.
-/
import proofs.«431202_j4664334483623_3_alg».proof.Proof.K.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x8192 .f32) (x1 : Vec F S1x512x8192 .f32) (xs0 : Vec F S19x1 .f32) (xs1 : Vec F S19x1 .f32) (xs2 : Vec F S19x512 .f32) :
    Σ' (L2 : List (View.Piece (Elt F) S1x512x19 .f32)) (LS0 : List (View.Piece (Elt F) S19x1 .f32)) (LS1 : List (View.Piece (Elt F) S19x1 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, ?_, fun E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Body

end
-- ==== Proof.K.Frame.lean ====
/-
  The frame of the pooling program: it runs to its end, faults nowhere and leaves its two argument arrays unchanged, with
  what every grid point leaves in the output's staging buffer and in the three scratch buffers NAMED.

  Point t is tile t % 4 of batch t / 4. Three cases: a batch's first tile (the scratch buffers are reset, then updated),
  a middle tile (updated from what the tile before left), the last tile (updated, then the quotient is stored over the
  whole output block). What a case leaves in a buffer is its stores read back; each buffer a case stores into is covered
  by one store of the whole buffer, so what it leaves does not depend on what the buffer held. The contents after each
  point are defined by recursion on the point, the scratch contents of point t - 1 feeding the run at t off a batch's
  first tile. The region invariant carries the three scratch buffers at those contents from point to point.
-/
import proofs.«431202_j4664334483623_3_alg».proof.Proof.K.RunA
import proofs.«431202_j4664334483623_3_alg».proof.Proof.K.RunB
import proofs.«431202_j4664334483623_3_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A batch's first tile: the output buffer untouched (a placeholder nothing consults), the scratch buffers' stores read back. -/
def afterA (c : Dev nD) (t : Fin cfg0.N) (h0 : t.val % 4 = 0) : Vec F S1x512x19 .f32 × Vec F S19x1 .f32 × Vec F S19x1 .f32 × Vec F S19x512 .f32 :=
  (VO0_2.read (Elt F) VO0_2.junk,
   VS0_0.read (Elt F) (VS0_0.writes (Elt F) VS0_0.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).1),
   VS0_1.read (Elt F) (VS0_1.writes (Elt F) VS0_1.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.1),
   VS0_2.read (Elt F) (VS0_2.writes (Elt F) VS0_2.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.1))

/-- A middle tile, from the scratch contents the tile before left. -/
def afterB (c : Dev nD) (t : Fin cfg0.N) (h0 : ¬t.val % 4 = 0) (h1 : ¬t.val % 4 = 3) (xs0 : Vec F S19x1 .f32) (xs1 : Vec F S19x1 .f32) (xs2 : Vec F S19x512 .f32) : Vec F S1x512x19 .f32 × Vec F S19x1 .f32 × Vec F S19x1 .f32 × Vec F S19x512 .f32 :=
  (VO0_2.read (Elt F) VO0_2.junk,
   VS0_0.read (Elt F) (VS0_0.writes (Elt F) VS0_0.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).1),
   VS0_1.read (Elt F) (VS0_1.writes (Elt F) VS0_1.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).2.1),
   VS0_2.read (Elt F) (VS0_2.writes (Elt F) VS0_2.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).2.2.1))

/-- A batch's last tile, from the scratch contents the tile before left: the output buffer's stores read back too. -/
def afterC (c : Dev nD) (t : Fin cfg0.N) (h0 : ¬t.val % 4 = 0) (h1 : t.val % 4 = 3) (xs0 : Vec F S19x1 .f32) (xs1 : Vec F S19x1 .f32) (xs2 : Vec F S19x512 .f32) : Vec F S1x512x19 .f32 × Vec F S19x1 .f32 × Vec F S19x1 .f32 × Vec F S19x512 .f32 :=
  (VO0_2.read (Elt F) (VO0_2.writes (Elt F) VO0_2.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).1),
   VS0_0.read (Elt F) (VS0_0.writes (Elt F) VS0_0.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.1),
   VS0_1.read (Elt F) (VS0_1.writes (Elt F) VS0_1.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.2.1),
   VS0_2.read (Elt F) (VS0_2.writes (Elt F) VS0_2.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.2.2.1))

/-! ## Every buffer a case stores into is covered by one store of the whole buffer -/

section Covers
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole)
  (x0 : Vec F S1x19x8192 .f32) (x1 : Vec F S1x512x8192 .f32) (xs0 : Vec F S19x1 .f32) (xs1 : Vec F S19x1 .f32) (xs2 : Vec F S19x512 .f32)

theorem coverA_0 (hc0 : cond0_0 i) (hc1 : ¬cond0_1 i) : ∀ y : S19x1.Idx, ∃ pc ∈ (kernelRun0_A (F := F) c i arg2 harg2 arg3 harg3 arg4 harg4 arg5 harg5 arg6 harg6 arg7 harg7 hc0 hc1 x0 x1).1, y ∈ pc.1.set :=
  View.cover_of_wholeMem _ (by unfold kernelRun0_A; sl_whole_mem)
theorem coverA_1 (hc0 : cond0_0 i) (hc1 : ¬cond0_1 i) : ∀ y : S19x1.Idx, ∃ pc ∈ (kernelRun0_A (F := F) c i arg2 harg2 arg3 harg3 arg4 harg4 arg5 harg5 arg6 harg6 arg7 harg7 hc0 hc1 x0 x1).2.1, y ∈ pc.1.set :=
  View.cover_of_wholeMem _ (by unfold kernelRun0_A; sl_whole_mem)
theorem coverA_2 (hc0 : cond0_0 i) (hc1 : ¬cond0_1 i) : ∀ y : S19x512.Idx, ∃ pc ∈ (kernelRun0_A (F := F) c i arg2 harg2 arg3 harg3 arg4 harg4 arg5 harg5 arg6 harg6 arg7 harg7 hc0 hc1 x0 x1).2.2.1, y ∈ pc.1.set :=
  View.cover_of_wholeMem _ (by unfold kernelRun0_A; sl_whole_mem)
theorem coverB_0 (hc0 : ¬cond0_0 i) (hc1 : ¬cond0_1 i) : ∀ y : S19x1.Idx, ∃ pc ∈ (kernelRun0_B (F := F) c i arg2 harg2 arg3 harg3 arg4 harg4 arg5 harg5 arg6 harg6 arg7 harg7 hc0 hc1 x0 x1 xs0 xs1 xs2).1, y ∈ pc.1.set :=
  View.cover_of_wholeMem _ (by unfold kernelRun0_B; sl_whole_mem)
theorem coverB_1 (hc0 : ¬cond0_0 i) (hc1 : ¬cond0_1 i) : ∀ y : S19x1.Idx, ∃ pc ∈ (kernelRun0_B (F := F) c i arg2 harg2 arg3 harg3 arg4 harg4 arg5 harg5 arg6 harg6 arg7 harg7 hc0 hc1 x0 x1 xs0 xs1 xs2).2.1, y ∈ pc.1.set :=
  View.cover_of_wholeMem _ (by unfold kernelRun0_B; sl_whole_mem)
theorem coverB_2 (hc0 : ¬cond0_0 i) (hc1 : ¬cond0_1 i) : ∀ y : S19x512.Idx, ∃ pc ∈ (kernelRun0_B (F := F) c i arg2 harg2 arg3 harg3 arg4 harg4 arg5 harg5 arg6 harg6 arg7 harg7 hc0 hc1 x0 x1 xs0 xs1 xs2).2.2.1, y ∈ pc.1.set :=
  View.cover_of_wholeMem _ (by unfold kernelRun0_B; sl_whole_mem)
theorem coverC_out (hc0 : ¬cond0_0 i) (hc1 : cond0_1 i) : ∀ y : S1x512x19.Idx, ∃ pc ∈ (kernelRun0_C (F := F) c i arg2 harg2 arg3 harg3 arg4 harg4 arg5 harg5 arg6 harg6 arg7 harg7 hc0 hc1 x0 x1 xs0 xs1 xs2).1, y ∈ pc.1.set :=
  View.cover_of_wholeMem _ (by unfold kernelRun0_C; sl_whole_mem)
theorem coverC_0 (hc0 : ¬cond0_0 i) (hc1 : cond0_1 i) : ∀ y : S19x1.Idx, ∃ pc ∈ (kernelRun0_C (F := F) c i arg2 harg2 arg3 harg3 arg4 harg4 arg5 harg5 arg6 harg6 arg7 harg7 hc0 hc1 x0 x1 xs0 xs1 xs2).2.1, y ∈ pc.1.set :=
  View.cover_of_wholeMem _ (by unfold kernelRun0_C; sl_whole_mem)
theorem coverC_1 (hc0 : ¬cond0_0 i) (hc1 : cond0_1 i) : ∀ y : S19x1.Idx, ∃ pc ∈ (kernelRun0_C (F := F) c i arg2 harg2 arg3 harg3 arg4 harg4 arg5 harg5 arg6 harg6 arg7 harg7 hc0 hc1 x0 x1 xs0 xs1 xs2).2.2.1, y ∈ pc.1.set :=
  View.cover_of_wholeMem _ (by unfold kernelRun0_C; sl_whole_mem)
theorem coverC_2 (hc0 : ¬cond0_0 i) (hc1 : cond0_1 i) : ∀ y : S19x512.Idx, ∃ pc ∈ (kernelRun0_C (F := F) c i arg2 harg2 arg3 harg3 arg4 harg4 arg5 harg5 arg6 harg6 arg7 harg7 hc0 hc1 x0 x1 xs0 xs1 xs2).2.2.2.1, y ∈ pc.1.set :=
  View.cover_of_wholeMem _ (by unfold kernelRun0_C; sl_whole_mem)
end Covers

/-! ## What the buffers hold after each point -/

/-- After the body at position n: the output's staging buffer, then the three scratch buffers. A batch's first tile
    starts afresh; the other tiles run from the scratch contents position n - 1 left. -/
def outsAt0 (c : Dev nD) : (n : ℕ) → n < cfg0.N → Vec F S1x512x19 .f32 × Vec F S19x1 .f32 × Vec F S19x1 .f32 × Vec F S19x512 .f32
  | 0, hn => afterA m c ⟨0, hn⟩ (Nat.zero_mod _)
  | n + 1, hn =>
    if h0 : (n + 1) % 4 = 0 then afterA m c ⟨n + 1, hn⟩ h0
    else if h1 : (n + 1) % 4 = 3 then
      afterC m c ⟨n + 1, hn⟩ h0 h1 (outsAt0 c n (Nat.lt_of_succ_lt hn)).2.1 (outsAt0 c n (Nat.lt_of_succ_lt hn)).2.2.1 (outsAt0 c n (Nat.lt_of_succ_lt hn)).2.2.2
    else
      afterB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- The contents before position t's body, for t not a batch's first tile: what position t - 1 left. -/
abbrev prevAt (c : Dev nD) (t : Fin cfg0.N) : Vec F S1x512x19 .f32 × Vec F S19x1 .f32 × Vec F S19x1 .f32 × Vec F S19x512 .f32 := outsAt0 m c (t.val - 1) (Nat.lt_of_le_of_lt (Nat.sub_le _ _) t.isLt)

theorem outsAt0_A (c : Dev nD) (t : Fin cfg0.N) (h0 : t.val % 4 = 0) : outsAt0 m c t.val t.isLt = afterA m c t h0 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 m c t.val t.isLt = afterB m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = afterC m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_pos h1).trans rfl)

/-! ## The region invariant: the scratch buffers carried from point to point -/

/-- Before position n: at the start every scratch buffer at anything; afterwards the three scratch buffers at what
    position n - 1 left in them, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point t each input's buffer at its block and the output's at
    what the recursion names; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' memrefs hold their blocks; the closed forms say which case the point is in; the
    invariant hands the body the scratch buffers (at anything before the very first point, at what the point before left
    afterwards) and takes them back at this point's contents; off a batch's last tile the output's buffer is handed back
    untouched, on it the buffer is returned at the stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0]
    unfold afterA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_0 c _ _ _ _ _ _ _ _ _ _ _ _ _ _ _ _ _)
          isplitl [HS1]
          · unfold owns; iexists _; isplitr
            swap; · iexact HS1
            ipureintro; exact View.read_writes_of_cover _ _ _ _ _ (coverA_1 c _ _ _ _ _ _ _ _ _ _ _ _ _ _ _ _ _)
          · unfold owns; iexists _; isplitr
            swap; · iexact HS2
            ipureintro; exact View.read_writes_of_cover _ _ _ _ _ (coverA_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_0 c _ _ _ _ _ _ _ _ _ _ _ _ _ _ _ _ _)
          isplitl [HS1]
          · unfold owns; iexists _; isplitr
            swap; · iexact HS1
            ipureintro; exact View.read_writes_of_cover _ _ _ _ _ (coverA_1 c _ _ _ _ _ _ _ _ _ _ _ _ _ _ _ _ _)
          · unfold owns; iexists _; isplitr
            swap; · iexact HS2
            ipureintro; exact View.read_writes_of_cover _ _ _ _ _ (coverA_2 c _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold afterC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverC_0 c _ _ _ _ _ _ _ _ _ _ _ _ _ _ _ _ _ _ _ _)
          isplitl [HS1]
          · unfold owns; iexists _; isplitr
            swap; · iexact HS1
            ipureintro; exact View.read_writes_of_cover _ _ _ _ _ (coverC_1 c _ _ _ _ _ _ _ _ _ _ _ _ _ _ _ _ _ _ _ _)
          · unfold owns; iexists _; isplitr
            swap; · iexact HS2
            ipureintro; exact View.read_writes_of_cover _ _ _ _ _ (coverC_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_out c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold afterB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB_0 c _ _ _ _ _ _ _ _ _ _ _ _ _ _ _ _ _ _ _ _)
          isplitl [HS1]
          · unfold owns; iexists _; isplitr
            swap; · iexact HS1
            ipureintro; exact View.read_writes_of_cover _ _ _ _ _ (coverB_1 c _ _ _ _ _ _ _ _ _ _ _ _ _ _ _ _ _ _ _ _)
          · unfold owns; iexists _; isplitr
            swap; · iexact HS2
            ipureintro; exact View.read_writes_of_cover _ _ _ _ _ (coverB_2 c _ _ _ _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Runs.lean ====
/-
  What the three runs of the pooling kernel's body share. The grid is 8 batches by 4 tiles of the spatial axis, the tile
  index innermost, so point t is tile t % 4 of batch t / 4. The body resets its three scratch buffers (running maximum,
  running normaliser, running weighted sums) on a batch's first tile, updates them on every tile, and on the batch's last
  tile divides the sums by the normaliser and stores the transposed quotient into the output block. Here: the two
  conditions in closed form over the grid, where the output window is idle or written back, the memrefs the body is called
  with, and the region invariant with the three scratch buffers spelled out.
-/
import proofs.«431202_j4664334483623_3_alg».proof.Proof.Gen.KernelIdeal.Frame
import proofs.«431202_j4664334483623_3_alg».proof.Proof.Gen.KernelIdeal.Loops
import proofs.«431202_j4664334483623_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the batch's first tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the batch's last tile": the body's second conditional. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- On a batch's last tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x19 .f32 := (Memref.whole cc0_stg2_0 : Memref sig .tc .vmem S1x512x19 .f32).view
/-- Each window's current staging memref at point t, and its wholeness. -/
abbrev ms0_0 (t : Fin cfg0.N) : Memref sig .tc .vmem S1x19x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x19 .f32 := win0_2.stage (cfg0.slots t 2)
abbrev hs0_2 (t : Fin cfg0.N) : (ms0_2 t).IsWhole := hstage0_2 ((cfg0.slots t 2).cast nbuf0_2)
/-- The three scratch buffers: the running maximum, the running normaliser, the running weighted sums. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view

/-- The region invariant "every scratch buffer at some contents, the generator register at some state", with the three
    scratch buffers as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KI.RunA.lean ====
/-
  The body's run on a batch's first tile: the three scratch buffers are reset (the running maximum to -inf, the normaliser
  and the weighted sums to zero) whatever they held, then updated as on every tile; the output block is left untouched.
  What the stores leave in the three scratch buffers is given as pieces (last first), with the proof that the body runs to
  its end on whole memrefs holding the two input blocks, the output's at contents handed back as they were.
-/
import proofs.«431202_j4664334483623_3_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x8192 .f32) (x1 : Vec F S1x512x8192 .f32) :
    Σ' (LS0 : List (View.Piece (Elt F) S19x1 .f32)) (LS1 : List (View.Piece (Elt F) S19x1 .f32)), { LS2 : List (View.Piece (Elt F) S19x512 .f32) //
      ∀ (xi2 : Vec F S1x512x19 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun xi2 E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KI.RunB.lean ====
/-
  The body's run on a middle tile of a batch (neither the first nor the last): nothing is reset and the output block is
  left untouched; the running maximum, normaliser and weighted sums are read at what the tile before left and stored back
  updated, the weighted sums through the loop over the four channel chunks. What the stores leave in the three scratch
  buffers is given as pieces (last first), with the proof that the body runs to its end.
-/
import proofs.«431202_j4664334483623_3_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x19x8192 .f32) (x1 : Vec F S1x512x8192 .f32) (xs0 : Vec F S19x1 .f32) (xs1 : Vec F S19x1 .f32) (xs2 : Vec F S19x512 .f32) :
    Σ' (LS0 : List (View.Piece (Elt F) S19x1 .f32)) (LS1 : List (View.Piece (Elt F) S19x1 .f32)), { LS2 : List (View.Piece (Elt F) S19x512 .f32) //
      ∀ (xi2 : Vec F S1x512x19 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun xi2 E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KI.RunC.lean ====
/-
  The body's run on a batch's last tile: the scratch buffers are updated as on every tile, then the weighted sums are
  divided by the normaliser, transposed, and stored over the whole output block. What the stores leave in the output's
  staging memref and in the three scratch buffers is given as pieces (last first), with the proof that the body runs to
  its end.
-/
import proofs.«431202_j4664334483623_3_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x8192 .f32) (x1 : Vec F S1x512x8192 .f32) (xs0 : Vec F S19x1 .f32) (xs1 : Vec F S19x1 .f32) (xs2 : Vec F S19x512 .f32) :
    Σ' (L2 : List (View.Piece (Elt F) S1x512x19 .f32)) (LS0 : List (View.Piece (Elt F) S19x1 .f32)) (LS1 : List (View.Piece (Elt F) S19x1 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, ?_, fun E K => ?run⟩
  case run =>
    simp only [cc0__pool_kernel_eq_skeleton]; unfold cc0__pool_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Body

end
-- ==== Proof.KI.Frame.lean ====
/-
  The frame of the pooling program: it runs to its end, faults nowhere and leaves its two argument arrays unchanged, with
  what every grid point leaves in the output's staging buffer and in the three scratch buffers NAMED.

  Point t is tile t % 4 of batch t / 4. Three cases: a batch's first tile (the scratch buffers are reset, then updated),
  a middle tile (updated from what the tile before left), the last tile (updated, then the quotient is stored over the
  whole output block). What a case leaves in a buffer is its stores read back; each buffer a case stores into is covered
  by one store of the whole buffer, so what it leaves does not depend on what the buffer held. The contents after each
  point are defined by recursion on the point, the scratch contents of point t - 1 feeding the run at t off a batch's
  first tile. The region invariant carries the three scratch buffers at those contents from point to point.
-/
import proofs.«431202_j4664334483623_3_alg».proof.Proof.KI.RunA
import proofs.«431202_j4664334483623_3_alg».proof.Proof.KI.RunB
import proofs.«431202_j4664334483623_3_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A batch's first tile: the output buffer untouched (a placeholder nothing consults), the scratch buffers' stores read back. -/
def afterA (c : Dev nD) (t : Fin cfg0.N) (h0 : t.val % 4 = 0) : Vec F S1x512x19 .f32 × Vec F S19x1 .f32 × Vec F S19x1 .f32 × Vec F S19x512 .f32 :=
  (VO0_2.read (Elt F) VO0_2.junk,
   VS0_0.read (Elt F) (VS0_0.writes (Elt F) VS0_0.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).1),
   VS0_1.read (Elt F) (VS0_1.writes (Elt F) VS0_1.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.1),
   VS0_2.read (Elt F) (VS0_2.writes (Elt F) VS0_2.junk (kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.1))

/-- A middle tile, from the scratch contents the tile before left. -/
def afterB (c : Dev nD) (t : Fin cfg0.N) (h0 : ¬t.val % 4 = 0) (h1 : ¬t.val % 4 = 3) (xs0 : Vec F S19x1 .f32) (xs1 : Vec F S19x1 .f32) (xs2 : Vec F S19x512 .f32) : Vec F S1x512x19 .f32 × Vec F S19x1 .f32 × Vec F S19x1 .f32 × Vec F S19x512 .f32 :=
  (VO0_2.read (Elt F) VO0_2.junk,
   VS0_0.read (Elt F) (VS0_0.writes (Elt F) VS0_0.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).1),
   VS0_1.read (Elt F) (VS0_1.writes (Elt F) VS0_1.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).2.1),
   VS0_2.read (Elt F) (VS0_2.writes (Elt F) VS0_2.junk (kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2).2.2.1))

/-- A batch's last tile, from the scratch contents the tile before left: the output buffer's stores read back too. -/
def afterC (c : Dev nD) (t : Fin cfg0.N) (h0 : ¬t.val % 4 = 0) (h1 : t.val % 4 = 3) (xs0 : Vec F S19x1 .f32) (xs1 : Vec F S19x1 .f32) (xs2 : Vec F S19x512 .f32) : Vec F S1x512x19 .f32 × Vec F S19x1 .f32 × Vec F S19x1 .f32 × Vec F S19x512 .f32 :=
  (VO0_2.read (Elt F) (VO0_2.writes (Elt F) VO0_2.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).1),
   VS0_0.read (Elt F) (VS0_0.writes (Elt F) VS0_0.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.1),
   VS0_1.read (Elt F) (VS0_1.writes (Elt F) VS0_1.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.2.1),
   VS0_2.read (Elt F) (VS0_2.writes (Elt F) VS0_2.junk (kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2).2.2.2.1))

/-! ## Every buffer a case stores into is covered by one store of the whole buffer -/

section Covers
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole)
  (x0 : Vec F S1x19x8192 .f32) (x1 : Vec F S1x512x8192 .f32) (xs0 : Vec F S19x1 .f32) (xs1 : Vec F S19x1 .f32) (xs2 : Vec F S19x512 .f32)

theorem coverA_0 (hc0 : cond0_0 i) (hc1 : ¬cond0_1 i) : ∀ y : S19x1.Idx, ∃ pc ∈ (kernelRun0_A (F := F) c i arg2 harg2 arg3 harg3 arg4 harg4 arg5 harg5 arg6 harg6 arg7 harg7 hc0 hc1 x0 x1).1, y ∈ pc.1.set :=
  View.cover_of_wholeMem _ (by unfold kernelRun0_A; sl_whole_mem)
theorem coverA_1 (hc0 : cond0_0 i) (hc1 : ¬cond0_1 i) : ∀ y : S19x1.Idx, ∃ pc ∈ (kernelRun0_A (F := F) c i arg2 harg2 arg3 harg3 arg4 harg4 arg5 harg5 arg6 harg6 arg7 harg7 hc0 hc1 x0 x1).2.1, y ∈ pc.1.set :=
  View.cover_of_wholeMem _ (by unfold kernelRun0_A; sl_whole_mem)
theorem coverA_2 (hc0 : cond0_0 i) (hc1 : ¬cond0_1 i) : ∀ y : S19x512.Idx, ∃ pc ∈ (kernelRun0_A (F := F) c i arg2 harg2 arg3 harg3 arg4 harg4 arg5 harg5 arg6 harg6 arg7 harg7 hc0 hc1 x0 x1).2.2.1, y ∈ pc.1.set :=
  View.cover_of_wholeMem _ (by unfold kernelRun0_A; sl_whole_mem)
theorem coverB_0 (hc0 : ¬cond0_0 i) (hc1 : ¬cond0_1 i) : ∀ y : S19x1.Idx, ∃ pc ∈ (kernelRun0_B (F := F) c i arg2 harg2 arg3 harg3 arg4 harg4 arg5 harg5 arg6 harg6 arg7 harg7 hc0 hc1 x0 x1 xs0 xs1 xs2).1, y ∈ pc.1.set :=
  View.cover_of_wholeMem _ (by unfold kernelRun0_B; sl_whole_mem)
theorem coverB_1 (hc0 : ¬cond0_0 i) (hc1 : ¬cond0_1 i) : ∀ y : S19x1.Idx, ∃ pc ∈ (kernelRun0_B (F := F) c i arg2 harg2 arg3 harg3 arg4 harg4 arg5 harg5 arg6 harg6 arg7 harg7 hc0 hc1 x0 x1 xs0 xs1 xs2).2.1, y ∈ pc.1.set :=
  View.cover_of_wholeMem _ (by unfold kernelRun0_B; sl_whole_mem)
theorem coverB_2 (hc0 : ¬cond0_0 i) (hc1 : ¬cond0_1 i) : ∀ y : S19x512.Idx, ∃ pc ∈ (kernelRun0_B (F := F) c i arg2 harg2 arg3 harg3 arg4 harg4 arg5 harg5 arg6 harg6 arg7 harg7 hc0 hc1 x0 x1 xs0 xs1 xs2).2.2.1, y ∈ pc.1.set :=
  View.cover_of_wholeMem _ (by unfold kernelRun0_B; sl_whole_mem)
theorem coverC_out (hc0 : ¬cond0_0 i) (hc1 : cond0_1 i) : ∀ y : S1x512x19.Idx, ∃ pc ∈ (kernelRun0_C (F := F) c i arg2 harg2 arg3 harg3 arg4 harg4 arg5 harg5 arg6 harg6 arg7 harg7 hc0 hc1 x0 x1 xs0 xs1 xs2).1, y ∈ pc.1.set :=
  View.cover_of_wholeMem _ (by unfold kernelRun0_C; sl_whole_mem)
theorem coverC_0 (hc0 : ¬cond0_0 i) (hc1 : cond0_1 i) : ∀ y : S19x1.Idx, ∃ pc ∈ (kernelRun0_C (F := F) c i arg2 harg2 arg3 harg3 arg4 harg4 arg5 harg5 arg6 harg6 arg7 harg7 hc0 hc1 x0 x1 xs0 xs1 xs2).2.1, y ∈ pc.1.set :=
  View.cover_of_wholeMem _ (by unfold kernelRun0_C; sl_whole_mem)
theorem coverC_1 (hc0 : ¬cond0_0 i) (hc1 : cond0_1 i) : ∀ y : S19x1.Idx, ∃ pc ∈ (kernelRun0_C (F := F) c i arg2 harg2 arg3 harg3 arg4 harg4 arg5 harg5 arg6 harg6 arg7 harg7 hc0 hc1 x0 x1 xs0 xs1 xs2).2.2.1, y ∈ pc.1.set :=
  View.cover_of_wholeMem _ (by unfold kernelRun0_C; sl_whole_mem)
theorem coverC_2 (hc0 : ¬cond0_0 i) (hc1 : cond0_1 i) : ∀ y : S19x512.Idx, ∃ pc ∈ (kernelRun0_C (F := F) c i arg2 harg2 arg3 harg3 arg4 harg4 arg5 harg5 arg6 harg6 arg7 harg7 hc0 hc1 x0 x1 xs0 xs1 xs2).2.2.2.1, y ∈ pc.1.set :=
  View.cover_of_wholeMem _ (by unfold kernelRun0_C; sl_whole_mem)
end Covers

/-! ## What the buffers hold after each point -/

/-- After the body at position n: the output's staging buffer, then the three scratch buffers. A batch's first tile
    starts afresh; the other tiles run from the scratch contents position n - 1 left. -/
def outsAt0 (c : Dev nD) : (n : ℕ) → n < cfg0.N → Vec F S1x512x19 .f32 × Vec F S19x1 .f32 × Vec F S19x1 .f32 × Vec F S19x512 .f32
  | 0, hn => afterA m c ⟨0, hn⟩ (Nat.zero_mod _)
  | n + 1, hn =>
    if h0 : (n + 1) % 4 = 0 then afterA m c ⟨n + 1, hn⟩ h0
    else if h1 : (n + 1) % 4 = 3 then
      afterC m c ⟨n + 1, hn⟩ h0 h1 (outsAt0 c n (Nat.lt_of_succ_lt hn)).2.1 (outsAt0 c n (Nat.lt_of_succ_lt hn)).2.2.1 (outsAt0 c n (Nat.lt_of_succ_lt hn)).2.2.2
    else
      afterB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- The contents before position t's body, for t not a batch's first tile: what position t - 1 left. -/
abbrev prevAt (c : Dev nD) (t : Fin cfg0.N) : Vec F S1x512x19 .f32 × Vec F S19x1 .f32 × Vec F S19x1 .f32 × Vec F S19x512 .f32 := outsAt0 m c (t.val - 1) (Nat.lt_of_le_of_lt (Nat.sub_le _ _) t.isLt)

theorem outsAt0_A (c : Dev nD) (t : Fin cfg0.N) (h0 : t.val % 4 = 0) : outsAt0 m c t.val t.isLt = afterA m c t h0 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 m c t.val t.isLt = afterB m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = afterC m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_pos h1).trans rfl)

/-! ## The region invariant: the scratch buffers carried from point to point -/

/-- Before position n: at the start every scratch buffer at anything; afterwards the three scratch buffers at what
    position n - 1 left in them, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point t each input's buffer at its block and the output's at
    what the recursion names; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' memrefs hold their blocks; the closed forms say which case the point is in; the
    invariant hands the body the scratch buffers (at anything before the very first point, at what the point before left
    afterwards) and takes them back at this point's contents; off a batch's last tile the output's buffer is handed back
    untouched, on it the buffer is returned at the stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0]
    unfold afterA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_0 c _ _ _ _ _ _ _ _ _ _ _ _ _ _ _ _ _)
          isplitl [HS1]
          · unfold owns; iexists _; isplitr
            swap; · iexact HS1
            ipureintro; exact View.read_writes_of_cover _ _ _ _ _ (coverA_1 c _ _ _ _ _ _ _ _ _ _ _ _ _ _ _ _ _)
          · unfold owns; iexists _; isplitr
            swap; · iexact HS2
            ipureintro; exact View.read_writes_of_cover _ _ _ _ _ (coverA_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_0 c _ _ _ _ _ _ _ _ _ _ _ _ _ _ _ _ _)
          isplitl [HS1]
          · unfold owns; iexists _; isplitr
            swap; · iexact HS1
            ipureintro; exact View.read_writes_of_cover _ _ _ _ _ (coverA_1 c _ _ _ _ _ _ _ _ _ _ _ _ _ _ _ _ _)
          · unfold owns; iexists _; isplitr
            swap; · iexact HS2
            ipureintro; exact View.read_writes_of_cover _ _ _ _ _ (coverA_2 c _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold afterC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverC_0 c _ _ _ _ _ _ _ _ _ _ _ _ _ _ _ _ _ _ _ _)
          isplitl [HS1]
          · unfold owns; iexists _; isplitr
            swap; · iexact HS1
            ipureintro; exact View.read_writes_of_cover _ _ _ _ _ (coverC_1 c _ _ _ _ _ _ _ _ _ _ _ _ _ _ _ _ _ _ _ _)
          · unfold owns; iexists _; isplitr
            swap; · iexact HS2
            ipureintro; exact View.read_writes_of_cover _ _ _ _ _ (coverC_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_out c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold afterB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB_0 c _ _ _ _ _ _ _ _ _ _ _ _ _ _ _ _ _ _ _ _)
          isplitl [HS1]
          · unfold owns; iexists _; isplitr
            swap; · iexact HS1
            ipureintro; exact View.read_writes_of_cover _ _ _ _ _ (coverB_1 c _ _ _ _ _ _ _ _ _ _ _ _ _ _ _ _ _ _ _ _)
          · unfold owns; iexists _; isplitr
            swap; · iexact HS2
            ipureintro; exact View.read_writes_of_cover _ _ _ _ _ (coverB_2 c _ _ _ _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Pool.Spec.lean ====
/-
  The result both programs compute, as ONE function of the two argument arrays, index by index, on the extended reals.

  The spatial axes (128 x 256) are read as one axis of 32768 positions, position n standing for (n / 256, n % 256).
  For a batch b and a class k the scores p[b, k, ·] are turned into softmax weights over the 32768 positions:
  with M the largest score of the row, e n = exp (p n - M), and L the sum of the e n, the weight of n is e n / L.
  The result at (b, c, k, 0) is the weighted sum over n of the features x[b, c, n].
-/
import Idealize.ShloMosaic.Lib.ValueIdx
import Idealize.ShloMosaic.PureOps.Ideal

noncomputable section

open scoped BigOperators

namespace Cert.Pool

open Idealize.ShloMosaic Idealize.ShloMosaic.ValueIdx

/-- The features' shape, the scores' shape and the result's shape. -/
abbrev SF : Shape := ⟨4, ![8, 512, 128, 256]⟩
abbrev SP : Shape := ⟨4, ![8, 19, 128, 256]⟩
abbrev SO : Shape := ⟨4, ![8, 512, 19, 1]⟩

/-- The row of a flat spatial position. -/
def hrow (n : Fin 32768) : Fin 128 := ⟨n.val / 256, by have := n.isLt; omega⟩
/-- The column of a flat spatial position. -/
def wcol (n : Fin 32768) : Fin 256 := ⟨n.val % 256, by omega⟩

/-- The score of class k at flat position n of batch b. -/
def score (P : SP.Idx → EReal) (b : Fin 8) (k : Fin 19) (n : Fin 32768) : EReal := P (ix4 b k (hrow n) (wcol n))
/-- The feature of channel c at flat position n of batch b. -/
def feat (X : SF.Idx → EReal) (b : Fin 8) (c : Fin 512) (n : Fin 32768) : EReal := X (ix4 b c (hrow n) (wcol n))
/-- The largest score of a row. -/
def rowMax (P : SP.Idx → EReal) (b : Fin 8) (k : Fin 19) : EReal := Finset.univ.sup (score P b k)
/-- The unnormalised weight: the exponential of the score's distance below the row's largest. -/
def expo (P : SP.Idx → EReal) (b : Fin 8) (k : Fin 19) (n : Fin 32768) : EReal := Ideal.exp (score P b k n - rowMax P b k)
/-- The normaliser of a row. -/
def rowSum (P : SP.Idx → EReal) (b : Fin 8) (k : Fin 19) : EReal := ∑ n : Fin 32768, expo P b k n
/-- The result: the softmax-weighted sum of the features over the spatial positions. -/
def G (X : SF.Idx → EReal) (P : SP.Idx → EReal) : SO.Idx → EReal := fun i =>
  ∑ n : Fin 32768, Ideal.div (expo P (i 0) (i 2) n) (rowSum P (i 0) (i 2)) * feat X (i 0) (i 1) n

end Cert.Pool

end
-- ==== Proof.Pool.Online.lean ====
/-
  The algebra of the "online" softmax, on the extended reals.

  For scores s i (all of them real numbers) over a finite index set T write
    mxS s T   = the largest score over T                       (⊥ for the empty set),
    Zs s T m  = Σ_{i ∈ T} exp (s i - m)                        (the normaliser relative to m),
    Ws s f T m = Σ_{i ∈ T} exp (s i - m) · f i                 (the weighted sum relative to m).
  Processing the index set tile by tile, one keeps the running maximum, normaliser and weighted sum of the
  part T seen so far; when a new tile U arrives, the old normaliser and weighted sum are rescaled by
  exp (old maximum - new maximum) and the tile's contributions (relative to the new maximum) are added.
  The rescaling is exact because exp (a - b) · exp (x - a) = exp (x - b) for real a, b, x; with T empty the
  old maximum is ⊥, the factor is exp ⊥ = 0 and the old sums are empty, so the step starts the recursion too.
  At the end the weighted sum divided by the normaliser is the sum of the softmax weights times the values,
  because the normaliser is a positive real number and division by it is multiplication by its reciprocal.

  The second half cuts the axis of 32768 positions into four consecutive tiles of 8192.
-/
import Idealize.ShloMosaic.PureOps.Ideal
import Mathlib.Data.EReal.Basic
import Mathlib.Data.Finset.Lattice.Fold
import Mathlib.Algebra.BigOperators.Group.Finset.Basic
import Mathlib.Algebra.Order.BigOperators.Group.Finset
import Mathlib.Analysis.SpecialFunctions.Exp

noncomputable section

open scoped BigOperators

namespace Cert.Pool

open Idealize.ShloMosaic

variable {ι : Type*} [DecidableEq ι]

/-- every value of an EReal-valued function is a real number -/
def IsRealFn (s : ι → EReal) : Prop := ∀ i, ∃ r : ℝ, s i = (r : EReal)
/-- the largest score over a finite set (⊥ over the empty set) -/
def mxS (s : ι → EReal) (T : Finset ι) : EReal := T.sup s
/-- the normaliser of the scores over T relative to m -/
def Zs (s : ι → EReal) (T : Finset ι) (m : EReal) : EReal := ∑ i ∈ T, Ideal.exp (s i - m)
/-- the weighted sum of the values f over T, with weights the exponentials relative to m -/
def Ws (s f : ι → EReal) (T : Finset ι) (m : EReal) : EReal := ∑ i ∈ T, Ideal.exp (s i - m) * f i

/-- The coercion of the reals into the extended reals commutes with finite sums. -/
private theorem coe_sum {κ : Type*} (T : Finset κ) (g : κ → ℝ) :
    ((∑ i ∈ T, g i : ℝ) : EReal) = ∑ i ∈ T, (g i : EReal) := by
  classical
  induction T using Finset.induction_on with
  | empty => simp
  | insert a T ha ih => rw [Finset.sum_insert ha, Finset.sum_insert ha, EReal.coe_add, ih]

/-- A function all of whose values are real is the coercion of a real-valued function. -/
private theorem IsRealFn.exists_real {s : ι → EReal} (hs : IsRealFn s) : ∃ σ : ι → ℝ, s = fun i => (σ i : EReal) :=
  ⟨fun i => (hs i).choose, funext fun i => (hs i).choose_spec⟩

private theorem isRealFn_coe (σ : ι → ℝ) : IsRealFn fun i => (σ i : EReal) := fun i => ⟨σ i, rfl⟩

/-- The largest score over a union is the larger of the two largest scores. -/
theorem mxS_union (s : ι → EReal) (T U : Finset ι) : max (mxS s T) (mxS s U) = mxS s (T ∪ U) := by
  unfold mxS
  rw [Finset.sup_union]

/-- Over a nonempty set the largest of real scores is a real number. -/
theorem mxS_real (s : ι → EReal) (hs : IsRealFn s) {T : Finset ι} (hT : T.Nonempty) :
    ∃ r : ℝ, mxS s T = (r : EReal) := by
  induction hT using Finset.Nonempty.cons_induction with
  | singleton a =>
    obtain ⟨r, hr⟩ := hs a
    exact ⟨r, by simp [mxS, hr]⟩
  | cons a T ha hT ih =>
    obtain ⟨r, hr⟩ := hs a
    obtain ⟨m, hm⟩ := ih
    refine ⟨max r m, ?_⟩
    unfold mxS at hm ⊢
    rw [Finset.sup_cons, hr, hm, EReal.coe_strictMono.monotone.map_max]

/-- For real scores and a real m the normaliser is the coercion of the real sum of exponentials. -/
private theorem Zs_coe (σ : ι → ℝ) (T : Finset ι) (m : ℝ) :
    Zs (fun i => (σ i : EReal)) T (m : EReal) = ((∑ i ∈ T, Real.exp (σ i - m) : ℝ) : EReal) := by
  unfold Zs
  rw [coe_sum]
  refine Finset.sum_congr rfl fun i _ => ?_
  rw [← EReal.coe_sub, Ideal.exp_coe]

/-- For real scores, real values and a real m the weighted sum is the coercion of the real weighted sum. -/
private theorem Ws_coe (σ φ : ι → ℝ) (T : Finset ι) (m : ℝ) :
    Ws (fun i => (σ i : EReal)) (fun i => (φ i : EReal)) T (m : EReal)
      = ((∑ i ∈ T, Real.exp (σ i - m) * φ i : ℝ) : EReal) := by
  unfold Ws
  rw [coe_sum]
  refine Finset.sum_congr rfl fun i _ => ?_
  rw [← EReal.coe_sub, Ideal.exp_coe, EReal.coe_mul]

/-- The rescaling identity in the reals: exp (a - b) · exp (x - a) = exp (x - b). -/
private theorem exp_rescale (a b x : ℝ) : Real.exp (a - b) * Real.exp (x - a) = Real.exp (x - b) := by
  rw [← Real.exp_add]
  congr 1
  ring

/-- One step of the running normaliser: rescale the old one to the new maximum and add the new tile's. -/
theorem Zs_step (s : ι → EReal) (hs : IsRealFn s) (T U : Finset ι) (hU : U.Nonempty) (hd : Disjoint T U) :
    Ideal.exp (mxS s T - mxS s (T ∪ U)) * Zs s T (mxS s T) + Zs s U (mxS s (T ∪ U))
      = Zs s (T ∪ U) (mxS s (T ∪ U)) := by
  rcases T.eq_empty_or_nonempty with rfl | hT
  · simp [Zs]
  · obtain ⟨σ, rfl⟩ := hs.exists_real
    obtain ⟨a, ha⟩ := mxS_real _ (isRealFn_coe σ) hT
    obtain ⟨b, hb⟩ := mxS_real _ (isRealFn_coe σ) (hT.mono Finset.subset_union_left)
    rw [ha, hb, Zs_coe, Zs_coe, Zs_coe, ← EReal.coe_sub, Ideal.exp_coe, ← EReal.coe_mul, ← EReal.coe_add,
      Finset.sum_union hd, Finset.mul_sum]
    congr 2
    exact Finset.sum_congr rfl fun i _ => exp_rescale a b (σ i)

/-- One step of the running weighted sum: rescale the old one to the new maximum and add the new tile's. -/
theorem Ws_step (s f : ι → EReal) (hs : IsRealFn s) (hf : IsRealFn f) (T U : Finset ι) (hU : U.Nonempty)
    (hd : Disjoint T U) :
    Ideal.exp (mxS s T - mxS s (T ∪ U)) * Ws s f T (mxS s T) + Ws s f U (mxS s (T ∪ U))
      = Ws s f (T ∪ U) (mxS s (T ∪ U)) := by
  rcases T.eq_empty_or_nonempty with rfl | hT
  · simp [Ws]
  · obtain ⟨σ, rfl⟩ := hs.exists_real
    obtain ⟨φ, rfl⟩ := hf.exists_real
    obtain ⟨a, ha⟩ := mxS_real _ (isRealFn_coe σ) hT
    obtain ⟨b, hb⟩ := mxS_real _ (isRealFn_coe σ) (hT.mono Finset.subset_union_left)
    rw [ha, hb, Ws_coe, Ws_coe, Ws_coe, ← EReal.coe_sub, Ideal.exp_coe, ← EReal.coe_mul, ← EReal.coe_add,
      Finset.sum_union hd, Finset.mul_sum]
    congr 2
    refine Finset.sum_congr rfl fun i _ => ?_
    rw [← mul_assoc, exp_rescale]

/-- The weighted sum over the normaliser is the sum of the softmax weights times the values. -/
theorem Ws_div_Zs (s f : ι → EReal) (hs : IsRealFn s) (hf : IsRealFn f) {T : Finset ι} (hT : T.Nonempty) :
    Ideal.div (Ws s f T (mxS s T)) (Zs s T (mxS s T))
      = ∑ i ∈ T, Ideal.div (Ideal.exp (s i - mxS s T)) (Zs s T (mxS s T)) * f i := by
  obtain ⟨σ, rfl⟩ := hs.exists_real
  obtain ⟨φ, rfl⟩ := hf.exists_real
  obtain ⟨a, ha⟩ := mxS_real _ (isRealFn_coe σ) hT
  have hz : (∑ i ∈ T, Real.exp (σ i - a)) ≠ 0 :=
    ne_of_gt (Finset.sum_pos (fun i _ => Real.exp_pos _) hT)
  rw [ha, Zs_coe, Ws_coe, Ideal.div_coe hz, ← EReal.coe_mul, Finset.sum_mul, coe_sum]
  refine Finset.sum_congr rfl fun i _ => ?_
  rw [Ideal.div_coe hz, ← EReal.coe_sub, Ideal.exp_coe, ← EReal.coe_mul, ← EReal.coe_mul]
  congr 1
  ring

/-! ### The four tiles of the spatial axis -/

/-- Position n of tile j is position 8192 · j + n of the axis. -/
def tileEmb (j : Fin 4) : Fin 8192 ↪ Fin 32768 :=
  ⟨fun n => ⟨8192 * j.val + n.val, by have := j.isLt; have := n.isLt; omega⟩, fun a b h => by
    have h' := congrArg Fin.val h
    simp only at h'
    exact Fin.ext (by omega)⟩
theorem tileEmb_val (j : Fin 4) (n : Fin 8192) : (tileEmb j n).val = 8192 * j.val + n.val := rfl
/-- The positions of tile j. -/
def tile (j : Fin 4) : Finset (Fin 32768) := Finset.univ.map (tileEmb j)
/-- The positions before tile j. -/
def upTo (j : ℕ) : Finset (Fin 32768) := Finset.univ.filter fun n => n.val < 8192 * j

/-- Tile j is the interval [8192 · j, 8192 · (j + 1)). -/
theorem mem_tile (j : Fin 4) (n : Fin 32768) :
    n ∈ tile j ↔ 8192 * j.val ≤ n.val ∧ n.val < 8192 * (j.val + 1) := by
  unfold tile
  rw [Finset.mem_map]
  constructor
  · rintro ⟨m, -, rfl⟩
    have := m.isLt
    rw [tileEmb_val]
    omega
  · rintro ⟨h1, h2⟩
    refine ⟨⟨n.val - 8192 * j.val, by omega⟩, Finset.mem_univ _, Fin.ext ?_⟩
    rw [tileEmb_val]
    simp only
    omega

theorem mem_upTo (j : ℕ) (n : Fin 32768) : n ∈ upTo j ↔ n.val < 8192 * j := by
  simp [upTo]

theorem upTo_zero : upTo 0 = ∅ := by
  ext n
  simp [mem_upTo]

theorem upTo_succ (j : Fin 4) : upTo (j.val + 1) = upTo j.val ∪ tile j := by
  ext n
  rw [Finset.mem_union, mem_upTo, mem_upTo, mem_tile]
  omega

theorem upTo_disjoint (j : Fin 4) : Disjoint (upTo j.val) (tile j) := by
  rw [Finset.disjoint_left]
  intro n h1 h2
  rw [mem_upTo] at h1
  rw [mem_tile] at h2
  omega

theorem upTo_four : upTo 4 = Finset.univ := by
  ext n
  have := n.isLt
  simp only [mem_upTo, Finset.mem_univ, iff_true]
  omega

theorem tile_nonempty (j : Fin 4) : (tile j).Nonempty :=
  ⟨tileEmb j 0, Finset.mem_map_of_mem _ (Finset.mem_univ _)⟩

/-- A sum over the positions of a tile is the sum over the tile's own index. -/
theorem sum_tile (j : Fin 4) (g : Fin 32768 → EReal) : ∑ n : Fin 8192, g (tileEmb j n) = ∑ i ∈ tile j, g i := by
  unfold tile
  rw [Finset.sum_map]

/-- The running maximum over a tile's own index, started from ⊥, is the largest value over the tile. -/
theorem fold_max_tile (j : Fin 4) (g : Fin 32768 → EReal) :
    (Finset.univ : Finset (Fin 8192)).fold max ⊥ (g ∘ tileEmb j) = (tile j).sup g := by
  unfold tile
  rw [Finset.sup_map]
  rfl

end Cert.Pool
-- ==== Proof.KI.Blocks.lean ====
/-
  An input window's block at a grid point, read at an index, is an entry of the argument array.

  The grid has 8 × 4 points; point t works on batch t / 4 and on tile t % 4 of the spatial axis. The scores and the
  features are staged from the arrays [8, 19, 32768] and [8, 512, 32768], which are the argument arrays
  [8, 19, 128, 256] and [8, 512, 128, 256] with their two spatial axes flattened: position p of the flat axis is
  (p / 256, p % 256). The window's block at point t is the part [1, rows, 8192] of the flat array at block index
  (t / 4, 0, t % 4), so its entry (0, r, n) is the flat array's entry (t / 4, r, 8192 · (t % 4) + n), which is the
  argument's entry (t / 4, r, p / 256, p % 256) at p = 8192 · (t % 4) + n.
-/
import proofs.«431202_j4664334483623_3_alg».proof.Proof.Gen.KernelIdeal.Frame
import proofs.«431202_j4664334483623_3_alg».proof.Proof.Pool.Spec
import proofs.«431202_j4664334483623_3_alg».proof.Proof.Pool.Online
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen Idealize.ShloMosaic Idealize.ShloMosaic.ValueIdx Idealize.SL.Sem
open Idealize.ShloMosaic.TcCoe

variable (m : (ℓ : Loc nD τ sig) → Buf (Elt Ideal) ℓ)

/-- the batch and the tile of a grid point -/
def batchOf (t : Fin cfg0.N) : Fin 8 := ⟨t.val / 4, by have := t.isLt; have hN : cfg0.N = 32 := N_0; omega⟩
def tileOf (t : Fin cfg0.N) : Fin 4 := ⟨t.val % 4, by omega⟩

/-- The scores' window is at block index (t / 4, 0, t % 4) at point t. -/
theorem index_scores : ∀ t : Fin cfg0.N,
    win0_0.index t 0 = t.val / 4 ∧ win0_0.index t 1 = 0 ∧ win0_0.index t 2 = t.val % 4 :=
  (by decide +kernel : ∀ t : Fin grid0.N,
    win0_0.index t 0 = t.val / 4 ∧ win0_0.index t 1 = 0 ∧ win0_0.index t 2 = t.val % 4)

/-- The features' window is at block index (t / 4, 0, t % 4) at point t. -/
theorem index_feats : ∀ t : Fin cfg0.N,
    win0_1.index t 0 = t.val / 4 ∧ win0_1.index t 1 = 0 ∧ win0_1.index t 2 = t.val % 4 :=
  (by decide +kernel : ∀ t : Fin grid0.N,
    win0_1.index t 0 = t.val / 4 ∧ win0_1.index t 1 = 0 ∧ win0_1.index t 2 = t.val % 4)

/-- When the region is entered the flat scores array holds the scores argument with its spatial axes flattened. -/
theorem V_scores (c : Dev nD) :
    (V m c main_v0 : S8x19x32768.Idx → EReal)
      = shapeCast S8x19x32768 (m ((c : Thread nD τ).loc main_arg1) : S8x19x128x256.Idx → EReal)
          shapeCasts_S8x19x128x256_S8x19x32768 := by
  dsimp only [Gen.V, Gen.V0]
  simp only [Gen.hostOps0, List.flatten_cons, List.flatten_nil, List.append_nil, List.cons_append, List.nil_append]
  after_results
  rfl

/-- When the region is entered the flat features array holds the features argument with its spatial axes flattened. -/
theorem V_feats (c : Dev nD) :
    (V m c main_v1 : S8x512x32768.Idx → EReal)
      = shapeCast S8x512x32768 (m ((c : Thread nD τ).loc main_arg0) : S8x512x128x256.Idx → EReal)
          shapeCasts_S8x512x128x256_S8x512x32768 := by
  dsimp only [Gen.V, Gen.V0]
  simp only [Gen.hostOps0, List.flatten_cons, List.flatten_nil, List.append_nil, List.cons_append, List.nil_append]
  after_results
  rfl

/-- An [a, b, 128, 256] array with its last two axes flattened reads, at (x, y, p), the operand at
    (x, y, p / 256, p % 256). -/
theorem shapeCast_flat_apply {a b : ℕ} (M : (⟨4, ![a, b, 128, 256]⟩ : Shape).Idx → EReal)
    (h : (⟨4, ![a, b, 128, 256]⟩ : Shape).ShapeCasts ⟨3, ![a, b, 32768]⟩) (x : Fin a) (y : Fin b) (p : Fin 32768) :
    shapeCast ⟨3, ![a, b, 32768]⟩ M h (ix3 x y p) = M (ix4 x y (Cert.Pool.hrow p) (Cert.Pool.wcol p)) :=
  shapeCast_apply M h _ _ (by
    have := p.isLt
    rw [Shape.rowMajor_val_four, Shape.rowMajor_val_three]
    show ((x.val * b + y.val) * 128 + p.val / 256) * 256 + p.val % 256 = (x.val * b + y.val) * 32768 + p.val
    generalize x.val * b + y.val = z
    omega)

/-- The scores' block at point t, at (0, r, n), is the flat scores array at (t / 4, r, 8192 · (t % 4) + n). -/
theorem pblk_flat (c : Dev nD) (t : Fin cfg0.N) (r : Fin 19) (n : Fin 8192) :
    iblk (F := Ideal) m c 0 t (ix3 0 r n)
      = (V m c main_v0 : S8x19x32768.Idx → EReal) (ix3 (batchOf t) r (Cert.Pool.tileEmb (tileOf t) n)) := by
  obtain ⟨h0, h1, h2⟩ := index_scores t
  unfold iblk
  rw [View.read_apply]
  show (V m c main_v0 : S8x19x32768.Idx → EReal) (((cfg0.win 0).blk t).view.emb (ix3 0 r n)) = _
  refine congrArg (V m c main_v0 : S8x19x32768.Idx → EReal) (funext fun a => Fin.ext ?_)
  match a with
  | ⟨0, _⟩ =>
    show win0_0.index t 0 * 1 + 1 * (0 : Fin 1).val = t.val / 4
    rw [h0]; simp
  | ⟨1, _⟩ =>
    show win0_0.index t 1 * 19 + 1 * r.val = r.val
    rw [h1]; omega
  | ⟨2, _⟩ =>
    show win0_0.index t 2 * 8192 + 1 * n.val = 8192 * (t.val % 4) + n.val
    rw [h2]; omega

/-- The features' block at point t, at (0, q, n), is the flat features array at (t / 4, q, 8192 · (t % 4) + n). -/
theorem fblk_flat (c : Dev nD) (t : Fin cfg0.N) (q : Fin 512) (n : Fin 8192) :
    iblk (F := Ideal) m c 1 t (ix3 0 q n)
      = (V m c main_v1 : S8x512x32768.Idx → EReal) (ix3 (batchOf t) q (Cert.Pool.tileEmb (tileOf t) n)) := by
  obtain ⟨h0, h1, h2⟩ := index_feats t
  unfold iblk
  rw [View.read_apply]
  show (V m c main_v1 : S8x512x32768.Idx → EReal) (((cfg0.win 1).blk t).view.emb (ix3 0 q n)) = _
  refine congrArg (V m c main_v1 : S8x512x32768.Idx → EReal) (funext fun a => Fin.ext ?_)
  match a with
  | ⟨0, _⟩ =>
    show win0_1.index t 0 * 1 + 1 * (0 : Fin 1).val = t.val / 4
    rw [h0]; simp
  | ⟨1, _⟩ =>
    show win0_1.index t 1 * 512 + 1 * q.val = q.val
    rw [h1]; omega
  | ⟨2, _⟩ =>
    show win0_1.index t 2 * 8192 + 1 * n.val = 8192 * (t.val % 4) + n.val
    rw [h2]; omega

/-- The scores' block at a point is the point's batch of the scores argument, over the point's tile. -/
theorem pblk_at (c : Dev nD) (t : Fin cfg0.N) (r : Fin 19) (n : Fin 8192) :
    iblk (F := Ideal) m c 0 t (ix3 0 r n)
      = Cert.Pool.score (m ((c : Thread nD τ).loc main_arg1)) (batchOf t) r (Cert.Pool.tileEmb (tileOf t) n) := by
  rw [pblk_flat, V_scores, shapeCast_flat_apply]
  rfl

/-- The features' block at a point is the point's batch of the features argument, over the point's tile. -/
theorem fblk_at (c : Dev nD) (t : Fin cfg0.N) (q : Fin 512) (n : Fin 8192) :
    iblk (F := Ideal) m c 1 t (ix3 0 q n)
      = Cert.Pool.feat (m ((c : Thread nD τ).loc main_arg0)) (batchOf t) q (Cert.Pool.tileEmb (tileOf t) n) := by
  rw [fblk_flat, V_feats, shapeCast_flat_apply]
  rfl

end Cert.KernelIdeal.Body
-- ==== Proof.KI.PayAt.lean ====
/-
  The kernel's pure payloads read at an index, on the extended reals.

  Each payload is a chain of pointwise operations and layout operations on the vectors the kernel has loaded.
  At the ideal values a pointwise operation reads its operands at the same index, a cast between [1, a, b] and
  [a, b] moves a unit axis, a keepdims column [a] → [a, 1] reads its row, a column broadcast [a, 1] → [a, b]
  reads the row's one entry, a transpose swaps the two coordinates, a lane reduction is a sum or a running
  maximum over the lane coordinate, and a matrix product is the sum over the contracted coordinate of the
  products. The constants are 1 (multiplication by it is the identity), 0 and -∞.

  So, for a row r of the 19 classes and a position n of the 8192 of a tile:
    payload 8  is the larger of the old maximum and the tile's largest score,
    payload 10 is exp (score - new maximum), payload 9 is exp (old maximum - new maximum),
    payload 11 is payload 9 · old normaliser + Σ_n payload 10, payload 13 is payload 9 · old accumulator,
    payload 1  adds to the accumulator the products of the weights with a slab of 128 feature rows,
    payload 3  divides the accumulator by the normaliser and transposes.
-/
import proofs.«431202_j4664334483623_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ### The three constants -/

/-- The pattern 0x3F800000 is the real number one. -/
theorem ofBits_one_f32 : Ideal.ofBits .f32 0x3F800000#32 = 1 := by
  simp [Ideal.ofBits, Ideal.ieee]
  rw [← EReal.coe_mul]
  norm_num

/-- The pattern 0xFF800000 is -∞. -/
theorem ofBits_ninf_f32 : Ideal.ofBits .f32 0xFF800000#32 = ⊥ := by simp [Ideal.ofBits, Ideal.ieee]

/-! ### The keepdims column forms -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the one entry of the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The scores of the tile -/

/-- Payload 7: the scores, a unit axis dropped and multiplied by one. -/
theorem pay7_at (v3 : Vec Ideal S1x19x8192 .f32) (r : Fin 19) (n : Fin 8192) :
    k0_pay7 (F := Ideal) v3 (ix2 r n) = v3 (ix3 0 r n) := by
  unfold k0_pay7
  rw [mulf_apply, shapeCast_1ab_ab_apply, broadcast_apply]
  show v3 (ix3 0 r n) * Ideal.ofBits .f32 0x3F800000#32 = _
  rw [ofBits_one_f32, mul_one]

/-- The index the lane reduction of a [19, 8192] vector reads at row r, lane n. -/
theorem lift_row (r : Fin 19) (n : Fin 8192) :
    reduces_S19x8192_S19.lift (ix1 r) n = ix2 r n :=
  funext fun a => Fin.ext (by match a with | ⟨0, _⟩ => rfl | ⟨1, _⟩ => rfl)

/-- Payload 8: the new running maximum. -/
theorem pay8_at (v3 : Vec Ideal S1x19x8192 .f32) (v9 : Vec Ideal S19x1 .f32) (r : Fin 19) :
    k0_pay8 (F := Ideal) v3 v9 (ix2 r 0)
      = max (v9 (ix2 r 0)) ((Finset.univ : Finset (Fin 8192)).fold max ⊥ (fun n => v3 (ix3 0 r n))) := by
  unfold k0_pay8
  rw [maximumf_apply, shapeCast_a_a1_apply]
  refine congrArg (max (v9 (ix2 r 0))) ?_
  refine (Ideal.multiReduction_maximumf_single (k0_pay7 (F := Ideal) v3) 0xFF800000#32 reduces_S19x8192_S19 (.inl rfl) rfl (ix1 r)).trans ?_
  show (Finset.univ : Finset (Fin 8192)).fold max (Ideal.ofBits .f32 0xFF800000#32)
    (fun n : Fin 8192 => k0_pay7 (F := Ideal) v3 (reduces_S19x8192_S19.lift (ix1 r) n)) = _
  rw [ofBits_ninf_f32]
  refine congrArg (fun f : Fin 8192 → EReal => (Finset.univ : Finset (Fin 8192)).fold max ⊥ f) (funext fun n : Fin 8192 => ?_)
  rw [lift_row, pay7_at]

/-- Payload 10: the exponential of a score's distance below the new maximum. -/
theorem pay10_at (v3 : Vec Ideal S1x19x8192 .f32) (v9 : Vec Ideal S19x1 .f32) (r : Fin 19) (n : Fin 8192) :
    k0_pay10 (F := Ideal) v3 v9 (ix2 r n) = Ideal.exp (v3 (ix3 0 r n) - k0_pay8 (F := Ideal) v3 v9 (ix2 r 0)) := by
  unfold k0_pay10
  show Ideal.exp (subf (k0_pay7 (F := Ideal) v3) _ (ix2 r n)) = _
  rw [subf_apply, pay7_at, broadcastTo_a1_ab_apply]

/-- Payload 9: the factor that rescales the old sums to the new maximum. -/
theorem pay9_at (v3 : Vec Ideal S1x19x8192 .f32) (v9 v11 : Vec Ideal S19x1 .f32) (r : Fin 19) :
    k0_pay9 (F := Ideal) v3 v9 v11 (ix2 r 0) = Ideal.exp (v11 (ix2 r 0) - k0_pay8 (F := Ideal) v3 v9 (ix2 r 0)) := rfl

/-- Payload 11: the new running normaliser. -/
theorem pay11_at (v3 : Vec Ideal S1x19x8192 .f32) (v9 v11 v17 : Vec Ideal S19x1 .f32) (r : Fin 19) :
    k0_pay11 (F := Ideal) v3 v9 v11 v17 (ix2 r 0)
      = k0_pay9 (F := Ideal) v3 v9 v11 (ix2 r 0) * v17 (ix2 r 0) + ∑ n : Fin 8192, k0_pay10 (F := Ideal) v3 v9 (ix2 r n) := by
  unfold k0_pay11
  rw [shapeCast_self, addf_apply, mulf_apply, shapeCast_a_a1_apply]
  refine congrArg (fun z : EReal => k0_pay9 (F := Ideal) v3 v9 v11 (ix2 r 0) * v17 (ix2 r 0) + z) ?_
  refine (Ideal.multiReduction_add_single (k0_pay10 (F := Ideal) v3 v9) 0x00000000#32 reduces_S19x8192_S19 (.inl rfl) rfl (ix1 r)).trans ?_
  show ∑ n : Fin 8192, k0_pay10 (F := Ideal) v3 v9 (reduces_S19x8192_S19.lift (ix1 r) n) = _
  exact Finset.sum_congr rfl fun n _ => by rw [lift_row]

/-- Payload 12: the weights again (the change of format is the identity). -/
theorem pay12_at (v3 : Vec Ideal S1x19x8192 .f32) (v9 : Vec Ideal S19x1 .f32) (r : Fin 19) (n : Fin 8192) :
    k0_pay12 (F := Ideal) v3 v9 (ix2 r n) = k0_pay10 (F := Ideal) v3 v9 (ix2 r n) := rfl

/-- Payload 13: the old accumulator rescaled. -/
theorem pay13_at (v3 : Vec Ideal S1x19x8192 .f32) (v9 v11 : Vec Ideal S19x1 .f32) (v26 : Vec Ideal S19x512 .f32)
    (r : Fin 19) (q : Fin 512) :
    k0_pay13 (F := Ideal) v3 v9 v11 v26 (ix2 r q) = k0_pay9 (F := Ideal) v3 v9 v11 (ix2 r 0) * v26 (ix2 r q) := by
  unfold k0_pay13
  rw [shapeCast_self, mulf_apply, broadcastTo_a1_ab_apply]

/-! ### The product with a slab of feature rows -/

/-- The left operand of the product reads its row from the result's row … -/
theorem lhs_pay1_0 (i : S19x128.Idx) (q : dot_S19x8192_S128x8192_S19x128_1_1_0_0_n_n.contr.Idx) :
    (dot_S19x8192_S128x8192_S19x128_1_1_0_0_n_n.lhsIdx i q 0).val = (i 0).val := by
  unfold DotDims.lhsIdx
  rw [dif_neg (show ¬(0 : Fin S19x8192.rank) ∈ dot_S19x8192_S128x8192_S19x128_1_1_0_0_n_n.lhsBatch by decide), dif_pos (show (0 : Fin S19x8192.rank) ∈ dot_S19x8192_S128x8192_S19x128_1_1_0_0_n_n.lhsNonContracting by decide)]
  rfl
/-- … and its column from the contracted coordinate. -/
theorem lhs_pay1_1 (i : S19x128.Idx) (q : dot_S19x8192_S128x8192_S19x128_1_1_0_0_n_n.contr.Idx) :
    (dot_S19x8192_S128x8192_S19x128_1_1_0_0_n_n.lhsIdx i q 1).val = (q ⟨0, by decide⟩).val :=
  dot_S19x8192_S128x8192_S19x128_1_1_0_0_n_n.lhsIdx_val_of_single rfl i q
/-- The right operand reads its row from the result's column … -/
theorem rhs_pay1_0 (i : S19x128.Idx) (q : dot_S19x8192_S128x8192_S19x128_1_1_0_0_n_n.contr.Idx) :
    (dot_S19x8192_S128x8192_S19x128_1_1_0_0_n_n.rhsIdx i q 0).val = (i 1).val := by
  unfold DotDims.rhsIdx
  rw [dif_neg (show ¬(0 : Fin S128x8192.rank) ∈ dot_S19x8192_S128x8192_S19x128_1_1_0_0_n_n.rhsBatch by decide), dif_pos (show (0 : Fin S128x8192.rank) ∈ dot_S19x8192_S128x8192_S19x128_1_1_0_0_n_n.rhsNonContracting by decide)]
  rfl
/-- … and its column from the contracted coordinate. -/
theorem rhs_pay1_1 (i : S19x128.Idx) (q : dot_S19x8192_S128x8192_S19x128_1_1_0_0_n_n.contr.Idx) :
    (dot_S19x8192_S128x8192_S19x128_1_1_0_0_n_n.rhsIdx i q 1).val = (q ⟨0, by decide⟩).val :=
  dot_S19x8192_S128x8192_S19x128_1_1_0_0_n_n.rhsIdx_val_of_single rfl i q

/-- Payload 1: the accumulator's slab plus, for each of its 128 feature rows, the sum over the tile's positions of
    weight times feature. -/
theorem pay1_at (v25 : FVec Ideal S19x8192 .bf16) (v42 : Vec Ideal S1x128x8192 .f32) (v47 : Vec Ideal S19x128 .f32)
    (r : Fin 19) (q : Fin 128) :
    k0_pay1 (F := Ideal) v25 v42 v47 (ix2 r q) = v47 (ix2 r q) + ∑ n : Fin 8192, v25 (ix2 r n) * v42 (ix3 0 q n) := by
  unfold k0_pay1
  rw [shapeCast_self, addf_apply]
  refine congrArg (fun z : EReal => v47 (ix2 r q) + z) ?_
  simp only [matmul]
  rw [Ideal.matmul_constant_zero_apply,
    ← Equiv.sum_comp (ValueIdx.contrEquiv1 dot_S19x8192_S128x8192_S19x128_1_1_0_0_n_n 8192 rfl rfl).symm]
  refine Finset.sum_congr rfl fun k _ => ?_
  have hk := ValueIdx.contrEquiv1_symm_val dot_S19x8192_S128x8192_S19x128_1_1_0_0_n_n 8192 rfl rfl k
  have el : dot_S19x8192_S128x8192_S19x128_1_1_0_0_n_n.lhsIdx (ix2 r q)
      ((ValueIdx.contrEquiv1 dot_S19x8192_S128x8192_S19x128_1_1_0_0_n_n 8192 rfl rfl).symm k) = ix2 r k :=
    funext fun a => Fin.ext (by
      match a with
      | ⟨0, _⟩ => exact lhs_pay1_0 _ _
      | ⟨1, _⟩ => exact (lhs_pay1_1 _ _).trans hk)
  have er : dot_S19x8192_S128x8192_S19x128_1_1_0_0_n_n.rhsIdx (ix2 r q)
      ((ValueIdx.contrEquiv1 dot_S19x8192_S128x8192_S19x128_1_1_0_0_n_n 8192 rfl rfl).symm k) = ix2 q k :=
    funext fun a => Fin.ext (by
      match a with
      | ⟨0, _⟩ => exact rhs_pay1_0 _ _
      | ⟨1, _⟩ => exact (rhs_pay1_1 _ _).trans hk)
  rw [el, er, truncf_apply, shapeCast_1ab_ab_apply]

/-- Payload 2: the running maximum as it is. -/
theorem pay2_eq (v10 : FVec Ideal S19x1 .f32) : k0_pay2 (F := Ideal) v10 = v10 := by
  unfold k0_pay2
  rw [shapeCast_self]

/-- Payload 3: the accumulator over the normaliser, transposed. -/
theorem pay3_at (v39 : Vec Ideal S19x512 .f32) (v40 : Vec Ideal S19x1 .f32) (q : Fin 512) (r : Fin 19) :
    k0_pay3 (F := Ideal) v39 v40 (ix3 0 q r) = Ideal.div (v39 (ix2 r q)) (v40 (ix2 r 0)) := by
  unfold k0_pay3
  rw [shapeCast_ab_1ab_apply, transpose_ix2_apply, divf_apply, broadcastTo_a1_ab_apply]

/-- Payload 4: -∞ everywhere. -/
theorem pay4_at (r : Fin 19) : k0_pay4 (F := Ideal) (ix2 r 0) = ⊥ := by
  unfold k0_pay4
  rw [shapeCast_self, broadcast_apply]
  exact ofBits_ninf_f32

/-- Payload 5: zero everywhere. -/
theorem pay5_at (r : Fin 19) : k0_pay5 (F := Ideal) (ix2 r 0) = 0 := by
  unfold k0_pay5
  rw [shapeCast_self, broadcast_apply]
  exact Ideal.ofBits_zero_f32

/-- Payload 6: zero everywhere. -/
theorem pay6_at (r : Fin 19) (q : Fin 512) : k0_pay6 (F := Ideal) (ix2 r q) = 0 := by
  unfold k0_pay6
  rw [shapeCast_self, broadcast_apply]
  exact Ideal.ofBits_zero_f32

end Cert.KernelIdeal.Body
-- ==== Proof.KI.LoopAt.lean ====
/-
  What the kernel's counted loop leaves in the scratch of weighted sums, read at an index on the extended reals.

  The scratch is a [19, 512] array: a row for each class, a column for each of the 512 channels. The loop makes
  four trips; trip k reads the slab of feature rows 128k … 128k + 127 (each of 8192 positions) and the scratch's
  columns 128k … 128k + 127, and writes back into those columns what it found there plus, for row r and column q,
  the sum over the tile's positions n of weight (r, n) times feature (q, n). Distinct trips write distinct columns,
  so what trip k finds in its columns is what the scratch held at loop entry; after the four trips every column
  holds its entry value plus its sum of products.
-/
import proofs.«431202_j4664334483623_3_alg».proof.Proof.Gen.KernelIdeal.Loops
import proofs.«431202_j4664334483623_3_alg».proof.Proof.KI.PayAt
import Idealize.ShloMosaic.Lib.Writes
import Idealize.ShloMosaic.Lib.ValueIdx

noncomputable section

open scoped BigOperators

namespace Cert.KernelIdeal.Body

open Cert.KernelIdeal Cert.KernelIdeal.Gen Idealize.ShloMosaic Idealize.ShloMosaic.ValueIdx Idealize.SL.Sem

/-! ### The trips and their offsets -/

/-- The loop makes four trips. -/
theorem trips_eq : k0_t1_loop.trips = 4 := by decide

/-- Trip k's columns start at row 0 … -/
theorem off2_row (k : Fin k0_t1_loop.trips) : k0_off2 k 0 = 0 := by rw [k0_off2_eq]; rfl
/-- … and column 128k. -/
theorem off2_col (k : Fin k0_t1_loop.trips) : k0_off2 k 1 = 128 * k.val := by rw [k0_off2_eq]; rfl
/-- Trip k's slab of features starts at (0, 128k, 0). -/
theorem off1_lead (k : Fin k0_t1_loop.trips) : k0_off1 k 0 = 0 := by rw [k0_off1_eq]; rfl
theorem off1_row (k : Fin k0_t1_loop.trips) : k0_off1 k 1 = 128 * k.val := by rw [k0_off1_eq]; rfl
theorem off1_pos (k : Fin k0_t1_loop.trips) : k0_off1 k 2 = 0 := by rw [k0_off1_eq]; rfl

/-- The columns trip k reads and writes: all 19 rows, columns 128k … 128k + 127. -/
abbrev cols (k : Fin k0_t1_loop.trips) : Rect S19x512 := Rect.unit (s := S19x512) (k0_off2 k) S19x128.size (k0_off2_inb k)
/-- The slab of features trip k reads: feature rows 128k … 128k + 127, every position. -/
abbrev slab (k : Fin k0_t1_loop.trips) : Rect S1x512x8192 := Rect.unit (s := S1x512x8192) (k0_off1 k) S1x128x8192.size (k0_off1_inb k)

/-- Column q' of trip k's columns is column 128k + q' of the scratch. -/
theorem cols_idx (k : Fin k0_t1_loop.trips) (r : Fin 19) (q' : Fin 128) (q : Fin 512) (hq : q.val = 128 * k.val + q'.val) :
    (cols k).toLoadRect.idx (ix2 r q') = ix2 r q :=
  funext fun a => Fin.ext (by
    match a with
    | ⟨0, _⟩ => show k0_off2 k 0 + 1 * r.val = r.val; rw [off2_row]; omega
    | ⟨1, _⟩ => show k0_off2 k 1 + 1 * q'.val = q.val; rw [off2_col]; omega)

/-- Row q' of trip k's slab is feature row 128k + q'. -/
theorem slab_idx (k : Fin k0_t1_loop.trips) (q' : Fin 128) (q : Fin 512) (hq : q.val = 128 * k.val + q'.val) (n : Fin 8192) :
    (slab k).toLoadRect.idx (ix3 (0 : Fin 1) q' n) = ix3 (0 : Fin 1) q n :=
  funext fun a => Fin.ext (by
    match a with
    | ⟨0, _⟩ => show k0_off1 k 0 + 1 * 0 = 0; rw [off1_lead]
    | ⟨1, _⟩ => show k0_off1 k 1 + 1 * q'.val = q.val; rw [off1_row]; omega
    | ⟨2, _⟩ => show k0_off1 k 2 + 1 * n.val = n.val; rw [off1_pos]; omega)

/-- Entry (r, q) of the scratch lies in trip k's columns exactly when 128k ≤ q < 128k + 128. -/
theorem mem_cols (k : Fin k0_t1_loop.trips) (r : Fin 19) (q : Fin 512) :
    ix2 r q ∈ (cols k).set ↔ 128 * k.val ≤ q.val ∧ q.val < 128 * k.val + 128 := by
  rw [Rect.mem_set_unit]
  constructor
  · intro h
    have h1 : k0_off2 k 1 ≤ q.val ∧ q.val < k0_off2 k 1 + 128 := h 1
    rw [off2_col] at h1
    exact h1
  · intro h a
    match a with
    | ⟨0, _⟩ =>
      show k0_off2 k 0 ≤ r.val ∧ r.val < k0_off2 k 0 + 19
      rw [off2_row]; have := r.isLt; omega
    | ⟨1, _⟩ =>
      show k0_off2 k 1 ≤ q.val ∧ q.val < k0_off2 k 1 + 128
      rw [off2_col]; exact h

section Loop

variable (𝒱 : Variants) (c : Dev nD) (bd : Option 𝒱.V) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (v25 : FVec Ideal S19x8192 .bf16) (X : BufTy.Contents (Elt Ideal) arg3.view.ty)

/-! ### One trip -/

/-- One trip writes one piece: over its columns, the payload of the weights, the slab of features it loads and
    what it loads from those columns. -/
theorem trip_piece (k : Fin k0_t1_loop.trips) (f : BufTy.Contents (Elt Ideal) arg7.view.ty) :
    tripL_k0_t1 (F := Ideal) 𝒱 c bd i arg2 harg2 arg3 harg3 arg4 harg4 arg5 harg5 arg6 harg6 arg7 harg7 v25 X k f
      = [⟨cols k, k0_pay1 (F := Ideal) v25 (arg3.view.readAt (Elt Ideal) (slab k).toLoadRect X)
          (arg7.view.readAt (Elt Ideal) (cols k).toLoadRect f)⟩] := by
  unfold tripL_k0_t1 trip_k0_t1
  rfl

/-- The trip's payload at (r, q'), for the scratch column q = 128k + q': what the scratch held at (r, q) plus the sum
    over the positions of weight (r, n) times feature (q, n). -/
theorem trip_pay_at (k : Fin k0_t1_loop.trips) (f : BufTy.Contents (Elt Ideal) arg7.view.ty) (r : Fin 19) (q' : Fin 128)
    (q : Fin 512) (hq : q.val = 128 * k.val + q'.val) :
    k0_pay1 (F := Ideal) v25 (arg3.view.readAt (Elt Ideal) (slab k).toLoadRect X)
        (arg7.view.readAt (Elt Ideal) (cols k).toLoadRect f) (ix2 r q')
      = arg7.view.read (Elt Ideal) f (ix2 r q) + ∑ n : Fin 8192, v25 (ix2 r n) * arg3.view.read (Elt Ideal) X (ix3 0 q n) := by
  rw [pay1_at]
  show arg7.view.read (Elt Ideal) f ((cols k).toLoadRect.idx (ix2 r q'))
      + ∑ n : Fin 8192, v25 (ix2 r n) * arg3.view.read (Elt Ideal) X ((slab k).toLoadRect.idx (ix3 (0 : Fin 1) q' n)) = _
  rw [cols_idx k r q' q hq]
  refine congrArg (fun z : EReal => arg7.view.read (Elt Ideal) f (ix2 r q) + z) (Finset.sum_congr rfl fun n _ => ?_)
  rw [slab_idx k q' q hq n]

/-! ### The trips before K -/

/-- After the trips before K, entry (r, q) of the scratch holds its entry value plus its sum of products if its
    column is below 128K, and its entry value otherwise. -/
theorem acc_upto (G : BufTy.Contents (Elt Ideal) arg7.view.ty) (r : Fin 19) (q : Fin 512) :
    ∀ K : ℕ, K ≤ 4 →
      arg7.view.read (Elt Ideal) (arg7.view.writes (Elt Ideal) G (pb_k0_t1 (F := Ideal) 𝒱 c bd i arg2 harg2 arg3 harg3 arg4 harg4 arg5 harg5 arg6 harg6 arg7 harg7 v25 X G K)) (ix2 r q)
        = if q.val < 128 * K then
            arg7.view.read (Elt Ideal) G (ix2 r q) + ∑ n : Fin 8192, v25 (ix2 r n) * arg3.view.read (Elt Ideal) X (ix3 0 q n)
          else arg7.view.read (Elt Ideal) G (ix2 r q)
  | 0, _ => by
    rw [if_neg (by omega)]
    rfl
  | K + 1, hK => by
    have hlt : K < k0_t1_loop.trips := by rw [trips_eq]; omega
    have ih := acc_upto G r q K (by omega)
    have hs : pb_k0_t1 (F := Ideal) 𝒱 c bd i arg2 harg2 arg3 harg3 arg4 harg4 arg5 harg5 arg6 harg6 arg7 harg7 v25 X G (K + 1)
        = tripL_k0_t1 (F := Ideal) 𝒱 c bd i arg2 harg2 arg3 harg3 arg4 harg4 arg5 harg5 arg6 harg6 arg7 harg7 v25 X ⟨K, hlt⟩
            (arg7.view.writes (Elt Ideal) G (pb_k0_t1 (F := Ideal) 𝒱 c bd i arg2 harg2 arg3 harg3 arg4 harg4 arg5 harg5 arg6 harg6 arg7 harg7 v25 X G K))
          ++ pb_k0_t1 (F := Ideal) 𝒱 c bd i arg2 harg2 arg3 harg3 arg4 harg4 arg5 harg5 arg6 harg6 arg7 harg7 v25 X G K :=
      pb_k0_t1_succ (F := Ideal) 𝒱 c bd i arg2 harg2 arg3 harg3 arg4 harg4 arg5 harg5 arg6 harg6 arg7 harg7 v25 X G ⟨K, hlt⟩
    rw [hs, trip_piece, List.singleton_append]
    generalize pb_k0_t1 (F := Ideal) 𝒱 c bd i arg2 harg2 arg3 harg3 arg4 harg4 arg5 harg5 arg6 harg6 arg7 harg7 v25 X G K = L at ih ⊢
    by_cases hin : 128 * K ≤ q.val ∧ q.val < 128 * K + 128
    · -- the entry lies in this trip's columns: it reads the trip's payload
      have hq : q.val = 128 * (⟨K, hlt⟩ : Fin k0_t1_loop.trips).val + (⟨q.val - 128 * K, by omega⟩ : Fin 128).val := by
        show q.val = 128 * K + (q.val - 128 * K); omega
      have he : (cols ⟨K, hlt⟩).emb (ix2 r (⟨q.val - 128 * K, by omega⟩ : Fin 128)) = ix2 r q :=
        cols_idx ⟨K, hlt⟩ r _ q hq
      rw [← he, View.read_writes_cons_emb, he, trip_pay_at arg3 arg7 v25 X ⟨K, hlt⟩ _ r _ q hq, ih,
        if_neg (by omega), if_pos (by omega)]
    · -- the entry lies outside this trip's columns: it reads what the earlier trips left
      have hout : ix2 r q ∉ (Finset.univ : Finset (cols ⟨K, hlt⟩).shape.Idx).map (cols ⟨K, hlt⟩).emb := by
        rw [Rect.map_emb_univ, mem_cols]; exact hin
      rw [View.writes_cons, View.read_slice_write_of_not_mem _ _ _ _ hout, ih]
      by_cases hlo : q.val < 128 * K
      · rw [if_pos hlo, if_pos (by omega)]
      · rw [if_neg hlo, if_neg (by omega)]

end Loop

/-! ### The whole loop -/

/-- After the four trips, entry (r, q) of the scratch holds what it held at loop entry plus the sum over the tile's
    positions of weight (r, n) times feature (q, n). -/
theorem loop_acc_at (𝒱 : Variants) (c : Dev nD) (bd : Option 𝒱.V) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (v25 : FVec Ideal S19x8192 .bf16) (X : BufTy.Contents (Elt Ideal) arg3.view.ty) (G : BufTy.Contents (Elt Ideal) arg7.view.ty) (r : Fin 19) (q : Fin 512) :
    arg7.view.read (Elt Ideal) (arg7.view.writes (Elt Ideal) G (pb_k0_t1 (F := Ideal) 𝒱 c bd i arg2 harg2 arg3 harg3 arg4 harg4 arg5 harg5 arg6 harg6 arg7 harg7 v25 X G 4)) (ix2 r q)
      = arg7.view.read (Elt Ideal) G (ix2 r q) + ∑ n : Fin 8192, v25 (ix2 r n) * arg3.view.read (Elt Ideal) X (ix3 0 q n) := by
  rw [acc_upto 𝒱 c bd i arg2 harg2 arg3 harg3 arg4 harg4 arg5 harg5 arg6 harg6 arg7 harg7 v25 X G r q 4 (le_refl 4), if_pos (by have := q.isLt; omega)]

end Cert.KernelIdeal.Body

end
-- ==== Proof.KI.Pieces.lean ====
/-
  What each case of the body leaves in the scratch buffers and in the output's buffer, READ AT AN INDEX on the extended
  reals. With x0 the scores' block and x1 the features' block of the point, and (mo, lo, ao) the running maximum,
  normaliser and weighted sums the body starts from (the reset values -inf, 0, 0 on a batch's first tile, what the tile
  before left otherwise): the new maximum of row r is the larger of mo r and the block's largest score of the row; the
  new normaliser is exp (mo - new maximum) * lo plus the sum of the row's exponentials; the new weighted sum of (r, q) is
  exp (mo - new maximum) * ao plus the sum over the block of exponential times feature; and on a batch's last tile the
  output's buffer holds, at (q, r), the new weighted sum divided by the new normaliser.
-/
import proofs.«431202_j4664334483623_3_alg».proof.Proof.KI.Frame
import proofs.«431202_j4664334483623_3_alg».proof.Proof.KI.LoopAt
import proofs.«431202_j4664334483623_3_alg».proof.Proof.KI.PayAt

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem

/-! ## Whole-buffer stores and loads -/

private theorem hz2 : (![0, 0] : Fin 2 → ℕ) = fun _ => 0 := funext fun a => by fin_cases a <;> rfl
private theorem hz3 : (![0, 0, 0] : Fin 3 → ℕ) = fun _ => 0 := funext fun a => by fin_cases a <;> rfl

/-- After a store of the whole buffer, whatever was stored before, the buffer reads the stored vector. -/
private theorem read_cons_whole {κ : Kind} {sp : Space} {s : Shape} {e : EltTy} (v : View sig κ sp s e)
    (f : v.ty.Contents (Elt Ideal)) {off : Fin s.rank → ℕ} (hz : off = fun _ => 0) (inb : ∀ a, off a + s.size a ≤ s.size a)
    (w : s.Idx → Elt Ideal e) (L : List (View.Piece (Elt Ideal) s e)) :
    v.read (Elt Ideal) (v.writes (Elt Ideal) f ((⟨Rect.unit off s.size inb, w⟩ : View.Piece (Elt Ideal) s e) :: L)) = w := by
  subst hz
  funext y
  have e := View.read_writes_cons_emb v f (Rect.whole s) w L y
  rw [Rect.emb_whole_apply] at e
  exact e

section Runs

variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x512x19 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole)

/-! ## A batch's first tile, over any memrefs -/

private theorem runA_max (hc0 : cond0_0 i) (hc1 : ¬cond0_1 i) (x0 : Vec Ideal S1x19x8192 .f32) (x1 : Vec Ideal S1x512x8192 .f32) (f : arg5.view.ty.Contents (Elt Ideal)) :
    arg5.view.read (Elt Ideal) (arg5.view.writes (Elt Ideal) f (kernelRun0_A (F := Ideal) c i arg2 harg2 arg3 harg3 arg4 harg4 arg5 harg5 arg6 harg6 arg7 harg7 hc0 hc1 x0 x1).1) = k0_pay8 (F := Ideal) x0 (k0_pay4 (F := Ideal)) := by
  unfold kernelRun0_A
  dsimp only
  sl_unfold_words
  rw [read_cons_whole _ _ hz2, pay2_eq]
  simp only [View.readAt_eq_ld, harg2.read_unread, harg3.read_unread, View.ld_unit_zero (S := S1x19x8192) hz3, View.readCov_unit_zero (S := S19x1) _ hz2, View.readCov_unit_zero (S := S19x512) _ hz2]

private theorem runA_norm (hc0 : cond0_0 i) (hc1 : ¬cond0_1 i) (x0 : Vec Ideal S1x19x8192 .f32) (x1 : Vec Ideal S1x512x8192 .f32) (f : arg6.view.ty.Contents (Elt Ideal)) :
    arg6.view.read (Elt Ideal) (arg6.view.writes (Elt Ideal) f (kernelRun0_A (F := Ideal) c i arg2 harg2 arg3 harg3 arg4 harg4 arg5 harg5 arg6 harg6 arg7 harg7 hc0 hc1 x0 x1).2.1) = k0_pay11 (F := Ideal) x0 (k0_pay4 (F := Ideal)) (k0_pay4 (F := Ideal)) (k0_pay5 (F := Ideal)) := by
  unfold kernelRun0_A
  dsimp only
  sl_unfold_words
  rw [read_cons_whole _ _ hz2]
  simp only [View.readAt_eq_ld, harg2.read_unread, harg3.read_unread, View.ld_unit_zero (S := S1x19x8192) hz3, View.readCov_unit_zero (S := S19x1) _ hz2, View.readCov_unit_zero (S := S19x512) _ hz2]

private theorem runA_acc (hc0 : cond0_0 i) (hc1 : ¬cond0_1 i) (x0 : Vec Ideal S1x19x8192 .f32) (x1 : Vec Ideal S1x512x8192 .f32) (r : Fin 19) (q : Fin 512) :
    arg7.view.read (Elt Ideal) (arg7.view.writes (Elt Ideal) arg7.view.junk (kernelRun0_A (F := Ideal) c i arg2 harg2 arg3 harg3 arg4 harg4 arg5 harg5 arg6 harg6 arg7 harg7 hc0 hc1 x0 x1).2.2.1) (ix2 r q)
      = k0_pay13 (F := Ideal) x0 (k0_pay4 (F := Ideal)) (k0_pay4 (F := Ideal)) (k0_pay6 (F := Ideal)) (ix2 r q) + ∑ n : Fin 8192, k0_pay12 (F := Ideal) x0 (k0_pay4 (F := Ideal)) (ix2 r n) * x1 (ix3 0 q n) := by
  unfold kernelRun0_A
  dsimp only
  sl_unfold_words
  rw [View.writes_append, show Scf.trips (0#32) (Scalar.addi 0#32 4#32) 1#32 = 4 from by decide, loop_acc_at, read_cons_whole _ _ hz2]
  simp only [View.readAt_eq_ld, harg2.read_unread, harg3.read_unread, View.ld_unit_zero (S := S1x19x8192) hz3, View.readCov_unit_zero (S := S19x1) _ hz2, View.readCov_unit_zero (S := S19x512) _ hz2]

/-! ## A middle tile, over any memrefs -/

private theorem runB_max (hc0 : ¬cond0_0 i) (hc1 : ¬cond0_1 i) (x0 : Vec Ideal S1x19x8192 .f32) (x1 : Vec Ideal S1x512x8192 .f32) (xs0 : Vec Ideal S19x1 .f32) (xs1 : Vec Ideal S19x1 .f32) (xs2 : Vec Ideal S19x512 .f32) (f : arg5.view.ty.Contents (Elt Ideal)) :
    arg5.view.read (Elt Ideal) (arg5.view.writes (Elt Ideal) f (kernelRun0_B (F := Ideal) c i arg2 harg2 arg3 harg3 arg4 harg4 arg5 harg5 arg6 harg6 arg7 harg7 hc0 hc1 x0 x1 xs0 xs1 xs2).1) = k0_pay8 (F := Ideal) x0 xs0 := by
  unfold kernelRun0_B
  dsimp only
  sl_unfold_words
  rw [read_cons_whole _ _ hz2, pay2_eq]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

private theorem runB_norm (hc0 : ¬cond0_0 i) (hc1 : ¬cond0_1 i) (x0 : Vec Ideal S1x19x8192 .f32) (x1 : Vec Ideal S1x512x8192 .f32) (xs0 : Vec Ideal S19x1 .f32) (xs1 : Vec Ideal S19x1 .f32) (xs2 : Vec Ideal S19x512 .f32) (f : arg6.view.ty.Contents (Elt Ideal)) :
    arg6.view.read (Elt Ideal) (arg6.view.writes (Elt Ideal) f (kernelRun0_B (F := Ideal) c i arg2 harg2 arg3 harg3 arg4 harg4 arg5 harg5 arg6 harg6 arg7 harg7 hc0 hc1 x0 x1 xs0 xs1 xs2).2.1) = k0_pay11 (F := Ideal) x0 xs0 xs0 xs1 := by
  unfold kernelRun0_B
  dsimp only
  sl_unfold_words
  rw [read_cons_whole _ _ hz2]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

private theorem runB_acc (hc0 : ¬cond0_0 i) (hc1 : ¬cond0_1 i) (x0 : Vec Ideal S1x19x8192 .f32) (x1 : Vec Ideal S1x512x8192 .f32) (xs0 : Vec Ideal S19x1 .f32) (xs1 : Vec Ideal S19x1 .f32) (xs2 : Vec Ideal S19x512 .f32) (r : Fin 19) (q : Fin 512) :
    arg7.view.read (Elt Ideal) (arg7.view.writes (Elt Ideal) arg7.view.junk (kernelRun0_B (F := Ideal) c i arg2 harg2 arg3 harg3 arg4 harg4 arg5 harg5 arg6 harg6 arg7 harg7 hc0 hc1 x0 x1 xs0 xs1 xs2).2.2.1) (ix2 r q)
      = k0_pay13 (F := Ideal) x0 xs0 xs0 xs2 (ix2 r q) + ∑ n : Fin 8192, k0_pay12 (F := Ideal) x0 xs0 (ix2 r n) * x1 (ix3 0 q n) := by
  unfold kernelRun0_B
  dsimp only
  sl_unfold_words
  rw [View.writes_append, show Scf.trips (0#32) (Scalar.addi 0#32 4#32) 1#32 = 4 from by decide, loop_acc_at, read_cons_whole _ _ hz2]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

/-! ## A batch's last tile, over any memrefs -/

private theorem runC_max (hc0 : ¬cond0_0 i) (hc1 : cond0_1 i) (x0 : Vec Ideal S1x19x8192 .f32) (x1 : Vec Ideal S1x512x8192 .f32) (xs0 : Vec Ideal S19x1 .f32) (xs1 : Vec Ideal S19x1 .f32) (xs2 : Vec Ideal S19x512 .f32) (f : arg5.view.ty.Contents (Elt Ideal)) :
    arg5.view.read (Elt Ideal) (arg5.view.writes (Elt Ideal) f (kernelRun0_C (F := Ideal) c i arg2 harg2 arg3 harg3 arg4 harg4 arg5 harg5 arg6 harg6 arg7 harg7 hc0 hc1 x0 x1 xs0 xs1 xs2).2.1) = k0_pay8 (F := Ideal) x0 xs0 := by
  unfold kernelRun0_C
  dsimp only
  sl_unfold_words
  rw [read_cons_whole _ _ hz2, pay2_eq]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

private theorem runC_norm (hc0 : ¬cond0_0 i) (hc1 : cond0_1 i) (x0 : Vec Ideal S1x19x8192 .f32) (x1 : Vec Ideal S1x512x8192 .f32) (xs0 : Vec Ideal S19x1 .f32) (xs1 : Vec Ideal S19x1 .f32) (xs2 : Vec Ideal S19x512 .f32) (f : arg6.view.ty.Contents (Elt Ideal)) :
    arg6.view.read (Elt Ideal) (arg6.view.writes (Elt Ideal) f (kernelRun0_C (F := Ideal) c i arg2 harg2 arg3 harg3 arg4 harg4 arg5 harg5 arg6 harg6 arg7 harg7 hc0 hc1 x0 x1 xs0 xs1 xs2).2.2.1) = k0_pay11 (F := Ideal) x0 xs0 xs0 xs1 := by
  unfold kernelRun0_C
  dsimp only
  sl_unfold_words
  rw [read_cons_whole _ _ hz2]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

private theorem runC_acc (hc0 : ¬cond0_0 i) (hc1 : cond0_1 i) (x0 : Vec Ideal S1x19x8192 .f32) (x1 : Vec Ideal S1x512x8192 .f32) (xs0 : Vec Ideal S19x1 .f32) (xs1 : Vec Ideal S19x1 .f32) (xs2 : Vec Ideal S19x512 .f32) (r : Fin 19) (q : Fin 512) :
    arg7.view.read (Elt Ideal) (arg7.view.writes (Elt Ideal) arg7.view.junk (kernelRun0_C (F := Ideal) c i arg2 harg2 arg3 harg3 arg4 harg4 arg5 harg5 arg6 harg6 arg7 harg7 hc0 hc1 x0 x1 xs0 xs1 xs2).2.2.2.1) (ix2 r q)
      = k0_pay13 (F := Ideal) x0 xs0 xs0 xs2 (ix2 r q) + ∑ n : Fin 8192, k0_pay12 (F := Ideal) x0 xs0 (ix2 r n) * x1 (ix3 0 q n) := by
  unfold kernelRun0_C
  dsimp only
  sl_unfold_words
  rw [View.writes_append, show Scf.trips (0#32) (Scalar.addi 0#32 4#32) 1#32 = 4 from by decide, loop_acc_at, read_cons_whole _ _ hz2]
  simp only [View.readAt_eq_ld, harg2.read_unread, harg3.read_unread, harg5.read_unread, harg6.read_unread, harg7.read_unread, View.ld_unit_zero (S := S1x19x8192) hz3, View.ld_unit_zero (S := S19x1) hz2, View.ld_unit_zero (S := S19x512) hz2]

private theorem runC_out (hc0 : ¬cond0_0 i) (hc1 : cond0_1 i) (x0 : Vec Ideal S1x19x8192 .f32) (x1 : Vec Ideal S1x512x8192 .f32) (xs0 : Vec Ideal S19x1 .f32) (xs1 : Vec Ideal S19x1 .f32) (xs2 : Vec Ideal S19x512 .f32) (v : View sig .tc .vmem S1x512x19 .f32)
    (f : v.ty.Contents (Elt Ideal)) (q : Fin 512) (r : Fin 19) :
    v.read (Elt Ideal) (v.writes (Elt Ideal) f (kernelRun0_C (F := Ideal) c i arg2 harg2 arg3 harg3 arg4 harg4 arg5 harg5 arg6 harg6 arg7 harg7 hc0 hc1 x0 x1 xs0 xs1 xs2).1) (ix3 0 q r)
      = Ideal.div (arg7.view.read (Elt Ideal) (arg7.view.writes (Elt Ideal) arg7.view.junk (kernelRun0_C (F := Ideal) c i arg2 harg2 arg3 harg3 arg4 harg4 arg5 harg5 arg6 harg6 arg7 harg7 hc0 hc1 x0 x1 xs0 xs1 xs2).2.2.2.1) (ix2 r q))
          (arg6.view.read (Elt Ideal) (arg6.view.writes (Elt Ideal) arg6.view.junk (kernelRun0_C (F := Ideal) c i arg2 harg2 arg3 harg3 arg4 harg4 arg5 harg5 arg6 harg6 arg7 harg7 hc0 hc1 x0 x1 xs0 xs1 xs2).2.2.1) (ix2 r 0)) := by
  unfold kernelRun0_C
  dsimp only
  sl_unfold_words
  rw [read_cons_whole _ _ hz3, pay3_at, read_cons_whole _ _ hz2]
  simp only [View.readAt_eq_ld, View.readCov_unit_zero (S := S19x1) _ hz2]
  refine congrArg (fun z => Ideal.div z _) ?_
  exact congrFun (View.ld_unit_zero (S := S19x512) hz2 inb_S19x512_S19x512_0_0 _) (ix2 r q)

end Runs

variable (m : (ℓ : Loc nD τ sig) → Buf (Elt Ideal) ℓ)

/-! ## A batch's first tile -/

theorem afterA_max (c : Dev nD) (t : Fin cfg0.N) (h0 : t.val % 4 = 0) (r : Fin 19) :
    (afterA (F := Ideal) m c t h0).2.1 (ix2 r 0) = k0_pay8 (F := Ideal) (iblk m c 0 t) (k0_pay4 (F := Ideal)) (ix2 r 0) := by
  unfold afterA
  dsimp only
  exact congrFun (runA_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) VS0_0.junk) (ix2 r 0)

theorem afterA_norm (c : Dev nD) (t : Fin cfg0.N) (h0 : t.val % 4 = 0) (r : Fin 19) :
    (afterA (F := Ideal) m c t h0).2.2.1 (ix2 r 0)
      = k0_pay11 (F := Ideal) (iblk m c 0 t) (k0_pay4 (F := Ideal)) (k0_pay4 (F := Ideal)) (k0_pay5 (F := Ideal)) (ix2 r 0) := by
  unfold afterA
  dsimp only
  exact congrFun (runA_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) VS0_1.junk) (ix2 r 0)

theorem afterA_acc (c : Dev nD) (t : Fin cfg0.N) (h0 : t.val % 4 = 0) (r : Fin 19) (q : Fin 512) :
    (afterA (F := Ideal) m c t h0).2.2.2 (ix2 r q)
      = k0_pay13 (F := Ideal) (iblk m c 0 t) (k0_pay4 (F := Ideal)) (k0_pay4 (F := Ideal)) (k0_pay6 (F := Ideal)) (ix2 r q)
        + ∑ n : Fin 8192, k0_pay12 (F := Ideal) (iblk m c 0 t) (k0_pay4 (F := Ideal)) (ix2 r n) * iblk m c 1 t (ix3 0 q n) := by
  unfold afterA
  dsimp only
  exact runA_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) r q

/-! ## A middle tile -/

theorem afterB_max (c : Dev nD) (t : Fin cfg0.N) (h0 : ¬t.val % 4 = 0) (h1 : ¬t.val % 4 = 3)
    (xs0 xs1 : Vec Ideal S19x1 .f32) (xs2 : Vec Ideal S19x512 .f32) (r : Fin 19) :
    (afterB (F := Ideal) m c t h0 h1 xs0 xs1 xs2).2.1 (ix2 r 0) = k0_pay8 (F := Ideal) (iblk m c 0 t) xs0 (ix2 r 0) := by
  unfold afterB
  dsimp only
  exact congrFun (runB_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2 VS0_0.junk) (ix2 r 0)

theorem afterB_norm (c : Dev nD) (t : Fin cfg0.N) (h0 : ¬t.val % 4 = 0) (h1 : ¬t.val % 4 = 3)
    (xs0 xs1 : Vec Ideal S19x1 .f32) (xs2 : Vec Ideal S19x512 .f32) (r : Fin 19) :
    (afterB (F := Ideal) m c t h0 h1 xs0 xs1 xs2).2.2.1 (ix2 r 0) = k0_pay11 (F := Ideal) (iblk m c 0 t) xs0 xs0 xs1 (ix2 r 0) := by
  unfold afterB
  dsimp only
  exact congrFun (runB_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2 VS0_1.junk) (ix2 r 0)

theorem afterB_acc (c : Dev nD) (t : Fin cfg0.N) (h0 : ¬t.val % 4 = 0) (h1 : ¬t.val % 4 = 3)
    (xs0 xs1 : Vec Ideal S19x1 .f32) (xs2 : Vec Ideal S19x512 .f32) (r : Fin 19) (q : Fin 512) :
    (afterB (F := Ideal) m c t h0 h1 xs0 xs1 xs2).2.2.2 (ix2 r q)
      = k0_pay13 (F := Ideal) (iblk m c 0 t) xs0 xs0 xs2 (ix2 r q)
        + ∑ n : Fin 8192, k0_pay12 (F := Ideal) (iblk m c 0 t) xs0 (ix2 r n) * iblk m c 1 t (ix3 0 q n) := by
  unfold afterB
  dsimp only
  exact runB_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) xs0 xs1 xs2 r q

/-! ## A batch's last tile -/

theorem afterC_max (c : Dev nD) (t : Fin cfg0.N) (h0 : ¬t.val % 4 = 0) (h1 : t.val % 4 = 3)
    (xs0 xs1 : Vec Ideal S19x1 .f32) (xs2 : Vec Ideal S19x512 .f32) (r : Fin 19) :
    (afterC (F := Ideal) m c t h0 h1 xs0 xs1 xs2).2.1 (ix2 r 0) = k0_pay8 (F := Ideal) (iblk m c 0 t) xs0 (ix2 r 0) := by
  unfold afterC
  dsimp only
  exact congrFun (runC_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2 VS0_0.junk) (ix2 r 0)

theorem afterC_norm (c : Dev nD) (t : Fin cfg0.N) (h0 : ¬t.val % 4 = 0) (h1 : t.val % 4 = 3)
    (xs0 xs1 : Vec Ideal S19x1 .f32) (xs2 : Vec Ideal S19x512 .f32) (r : Fin 19) :
    (afterC (F := Ideal) m c t h0 h1 xs0 xs1 xs2).2.2.1 (ix2 r 0) = k0_pay11 (F := Ideal) (iblk m c 0 t) xs0 xs0 xs1 (ix2 r 0) := by
  unfold afterC
  dsimp only
  exact congrFun (runC_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2 VS0_1.junk) (ix2 r 0)

theorem afterC_acc (c : Dev nD) (t : Fin cfg0.N) (h0 : ¬t.val % 4 = 0) (h1 : t.val % 4 = 3)
    (xs0 xs1 : Vec Ideal S19x1 .f32) (xs2 : Vec Ideal S19x512 .f32) (r : Fin 19) (q : Fin 512) :
    (afterC (F := Ideal) m c t h0 h1 xs0 xs1 xs2).2.2.2 (ix2 r q)
      = k0_pay13 (F := Ideal) (iblk m c 0 t) xs0 xs0 xs2 (ix2 r q)
        + ∑ n : Fin 8192, k0_pay12 (F := Ideal) (iblk m c 0 t) xs0 (ix2 r n) * iblk m c 1 t (ix3 0 q n) := by
  unfold afterC
  dsimp only
  exact runC_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2 r q

theorem afterC_out (c : Dev nD) (t : Fin cfg0.N) (h0 : ¬t.val % 4 = 0) (h1 : t.val % 4 = 3)
    (xs0 xs1 : Vec Ideal S19x1 .f32) (xs2 : Vec Ideal S19x512 .f32) (q : Fin 512) (r : Fin 19) :
    (afterC (F := Ideal) m c t h0 h1 xs0 xs1 xs2).1 (ix3 0 q r)
      = Ideal.div ((afterC (F := Ideal) m c t h0 h1 xs0 xs1 xs2).2.2.2 (ix2 r q)) ((afterC (F := Ideal) m c t h0 h1 xs0 xs1 xs2).2.2.1 (ix2 r 0)) := by
  unfold afterC
  dsimp only
  exact runC_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) xs0 xs1 xs2 VO0_2 VO0_2.junk q r

end Cert.KernelIdeal.Body

end
-- ==== Proof.KI.Finite.lean ====
/-
  From the stated precondition to "every score and every feature is a real number".

  The precondition says that for each argument array the conjunction, over all of its entries x, of |x| < +∞ is
  true. A conjunction that is true is true at every entry; and an extended real x with max x (-x) < +∞ is neither
  -∞ nor +∞ (at either of them max x (-x) = +∞), so it is a real number. The scores and the features of a row are
  entries of the two argument arrays.
-/
import proofs.«431202_j4664334483623_3_alg».proof.Defs
import proofs.«431202_j4664334483623_3_alg».proof.Proof.Gen.Pre_finite_inputs
import proofs.«431202_j4664334483623_3_alg».proof.Proof.Pool.Spec
import proofs.«431202_j4664334483623_3_alg».proof.Proof.Pool.Online
import Idealize.ShloMosaic.Lib.ReduceAll
import Idealize.ShloMosaic.Lib.ValueIdx
import Idealize.ShloMosaic.PureOps.Ideal.Laws

noncomputable section

namespace Cert.KernelIdeal.Body

open Idealize.ShloMosaic Idealize.ShloMosaic.ValueIdx Idealize.SL.Sem

/-- The pattern 0x7F800000 is +∞. -/
theorem ofBits_pinf_f32 : Ideal.ofBits .f32 0x7F800000#32 = ⊤ := by simp [Ideal.ofBits, Ideal.ieee]

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  rw [ofBits_pinf_f32] at h
  induction x using EReal.rec with
  | bot => exact absurd h (by simp [Ideal.cmp])
  | coe r => exact ⟨r, rfl⟩
  | top => exact absurd h (by simp [Ideal.cmp])

/-- A shape of rank zero has one index. -/
local instance subsingleton_scalarIdx : Subsingleton Cert.Pre_finite_inputs.S_.Idx := ⟨fun a b => funext fun d => d.elim0⟩

/-- Under the precondition every entry of either argument array is a real number. -/
theorem entries_real [Cert.Pre_finite_inputs.Facts]
    (X : FVec Ideal Cert.Pre_finite_inputs.S8x512x128x256 .f32) (P : FVec Ideal Cert.Pre_finite_inputs.S8x19x128x256 .f32)
    (h : Cert.Pre_finite_inputs.fn (F := Ideal) X P = fun _ => 1#1) :
    (∀ i, ∃ r : ℝ, X i = (r : EReal)) ∧ (∀ i, ∃ r : ℝ, P i = (r : EReal)) := by
  have e := congrFun h ValueIdx.ix0
  dsimp only [Cert.Pre_finite_inputs.fn] at e
  obtain ⟨e0, e1⟩ := IntOp.andi_eq_one.1 e
  refine ⟨fun i => ?_, fun i => ?_⟩
  · have := Host.reduce_andi_all _ _ _ _ _ e0 i
    exact real_of_abs_lt_top (X i) this
  · have := Host.reduce_andi_all _ _ _ _ _ e1 i
    exact real_of_abs_lt_top (P i) this

/-- Under the precondition the scores of a row are real numbers. -/
theorem score_real (m : (ℓ : Loc Cert.KernelIdeal.nD Cert.KernelIdeal.τ Cert.KernelIdeal.sig) → Buf (Elt Ideal) ℓ)
    (h : Cert.Pre_KernelIdeal m) (c : Dev Cert.KernelIdeal.nD) (b : Fin 8) (k : Fin 19) :
    Cert.Pool.IsRealFn (Cert.Pool.score (m ((c.tc : Thread Cert.KernelIdeal.nD Cert.KernelIdeal.τ).loc Cert.KernelIdeal.main_arg1)) b k) :=
  fun n => (entries_real _ _ (h c)).2 _

/-- Under the precondition the features of a row are real numbers. -/
theorem feat_real (m : (ℓ : Loc Cert.KernelIdeal.nD Cert.KernelIdeal.τ Cert.KernelIdeal.sig) → Buf (Elt Ideal) ℓ)
    (h : Cert.Pre_KernelIdeal m) (c : Dev Cert.KernelIdeal.nD) (b : Fin 8) (q : Fin 512) :
    Cert.Pool.IsRealFn (Cert.Pool.feat (m ((c.tc : Thread Cert.KernelIdeal.nD Cert.KernelIdeal.τ).loc Cert.KernelIdeal.main_arg0)) b q) :=
  fun n => (entries_real _ _ (h c)).1 _

end Cert.KernelIdeal.Body
-- ==== Proof.KI.Invariant.lean ====
/-
  What the scratch buffers hold after every grid point, and what the output's buffer holds after a batch's last
  tile, as the specification's quantities.

  Point t is tile j = t % 4 of batch b = t / 4. Write s for the scores of a row r of batch b over the 32768
  positions and f q for the features of channel q. After point t the three scratch buffers hold, at row r, the
  largest score over the positions of tiles 0 … j, the normaliser of those positions relative to that maximum,
  and for every channel q the weighted sum of f q over those positions relative to that maximum.

  By induction on the point. On a batch's first tile the body starts from -∞, 0, 0, which are the three
  quantities over the empty set of positions; on a later tile it starts from what the point before left, which
  by induction are the quantities over tiles 0 … j - 1 of the same batch. One step of the body takes the
  quantities over a set T of positions and a tile U disjoint from it to the quantities over T ∪ U: the new maximum
  is the larger of the old one and the tile's, and the old normaliser and weighted sums are rescaled by
  exp (old maximum - new maximum) before the tile's terms, relative to the new maximum, are added.

  After a batch's last tile the positions are all 32768, and the output's buffer holds at (q, r) the weighted sum
  over the normaliser, which is the sum over all positions of softmax weight times feature.
-/
import proofs.«431202_j4664334483623_3_alg».proof.Proof.KI.Pieces
import proofs.«431202_j4664334483623_3_alg».proof.Proof.KI.Blocks
import proofs.«431202_j4664334483623_3_alg».proof.Proof.KI.Finite
import proofs.«431202_j4664334483623_3_alg».proof.Proof.KI.PayAt
import proofs.«431202_j4664334483623_3_alg».proof.Proof.Pool.Online
import proofs.«431202_j4664334483623_3_alg».proof.Proof.Pool.Spec

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem Cert.Pool

/-! ## One step of the body, on any tile -/

/-- From the three quantities over the positions before tile j (held by xs0, xs1, xs2 at row r) and the tile's
    scores and features (the blocks x0, x1), the body's new maximum, normaliser and weighted sums are the three
    quantities over the positions up to and including tile j. -/
theorem tile_step (j : Fin 4) (s : Fin 32768 → EReal) (hs : IsRealFn s) (f : Fin 512 → Fin 32768 → EReal)
    (hf : ∀ q, IsRealFn (f q)) (x0 : Vec Ideal S1x19x8192 .f32) (x1 : Vec Ideal S1x512x8192 .f32) (r : Fin 19)
    (hx0 : ∀ n, x0 (ix3 0 r n) = s (tileEmb j n)) (hx1 : ∀ q n, x1 (ix3 0 q n) = f q (tileEmb j n))
    (xs0 xs1 : Vec Ideal S19x1 .f32) (xs2 : Vec Ideal S19x512 .f32)
    (h0 : xs0 (ix2 r 0) = mxS s (upTo j.val))
    (h1 : xs1 (ix2 r 0) = Zs s (upTo j.val) (mxS s (upTo j.val)))
    (h2 : ∀ q, xs2 (ix2 r q) = Ws s (f q) (upTo j.val) (mxS s (upTo j.val))) :
    k0_pay8 (F := Ideal) x0 xs0 (ix2 r 0) = mxS s (upTo (j.val + 1))
    ∧ k0_pay11 (F := Ideal) x0 xs0 xs0 xs1 (ix2 r 0) = Zs s (upTo (j.val + 1)) (mxS s (upTo (j.val + 1)))
    ∧ ∀ q : Fin 512, k0_pay13 (F := Ideal) x0 xs0 xs0 xs2 (ix2 r q)
          + ∑ n : Fin 8192, k0_pay12 (F := Ideal) x0 xs0 (ix2 r n) * x1 (ix3 0 q n)
        = Ws s (f q) (upTo (j.val + 1)) (mxS s (upTo (j.val + 1))) := by
  have hM : k0_pay8 (F := Ideal) x0 xs0 (ix2 r 0) = mxS s (upTo (j.val + 1)) := by
    have hb : (fun n : Fin 8192 => x0 (ix3 0 r n)) = s ∘ tileEmb j := funext fun n => hx0 n
    rw [pay8_at, h0, hb, fold_max_tile, upTo_succ]
    exact mxS_union s _ _
  refine ⟨hM, ?_, fun q => ?_⟩
  · have e : ∑ n : Fin 8192, k0_pay10 (F := Ideal) x0 xs0 (ix2 r n) = Zs s (tile j) (mxS s (upTo (j.val + 1))) := by
      unfold Zs
      rw [← sum_tile j (fun i => Ideal.exp (s i - mxS s (upTo (j.val + 1))))]
      exact Finset.sum_congr rfl fun n _ => by rw [pay10_at, hM, hx0]
    rw [pay11_at, pay9_at, hM, h0, h1, e, upTo_succ]
    exact Zs_step s hs (upTo j.val) (tile j) (tile_nonempty j) (upTo_disjoint j)
  · have e : ∑ n : Fin 8192, k0_pay12 (F := Ideal) x0 xs0 (ix2 r n) * x1 (ix3 0 q n)
        = Ws s (f q) (tile j) (mxS s (upTo (j.val + 1))) := by
      unfold Ws
      rw [← sum_tile j (fun i => Ideal.exp (s i - mxS s (upTo (j.val + 1))) * f q i)]
      exact Finset.sum_congr rfl fun n _ => by rw [pay12_at, pay10_at, hM, hx0, hx1]
    rw [pay13_at, pay9_at, hM, h0, h2, e, upTo_succ]
    exact Ws_step s (f q) hs (hf q) (upTo j.val) (tile j) (tile_nonempty j) (upTo_disjoint j)

/-! ## The step at a grid point -/

variable (m : (ℓ : Loc nD τ sig) → Buf (Elt Ideal) ℓ) (hpre : Cert.Pre_KernelIdeal m)

/-- the scores' and the features' argument arrays on core c -/
abbrev Parr (c : Dev nD) := m ((c : Thread nD τ).loc main_arg1)
abbrev Xarr (c : Dev nD) := m ((c : Thread nD τ).loc main_arg0)

/-- The three quantities of row r of point t's batch over the first k tiles' positions, held by a triple of
    scratch contents. -/
def Holds (c : Dev nD) (r : Fin 19) (t : Fin cfg0.N) (k : ℕ)
    (o : Vec Ideal S1x512x19 .f32 × Vec Ideal S19x1 .f32 × Vec Ideal S19x1 .f32 × Vec Ideal S19x512 .f32) : Prop :=
  o.2.1 (ix2 r 0) = mxS (score (Parr m c) (batchOf t) r) (upTo k)
  ∧ o.2.2.1 (ix2 r 0) = Zs (score (Parr m c) (batchOf t) r) (upTo k) (mxS (score (Parr m c) (batchOf t) r) (upTo k))
  ∧ ∀ q : Fin 512, o.2.2.2 (ix2 r q)
      = Ws (score (Parr m c) (batchOf t) r) (feat (Xarr m c) (batchOf t) q) (upTo k) (mxS (score (Parr m c) (batchOf t) r) (upTo k))

include hpre in
/-- The body's step at point t, from any scratch contents that hold the quantities over the tiles before t's. -/
theorem point_step (c : Dev nD) (t : Fin cfg0.N) (r : Fin 19) (xs0 xs1 : Vec Ideal S19x1 .f32) (xs2 : Vec Ideal S19x512 .f32)
    (h0 : xs0 (ix2 r 0) = mxS (score (Parr m c) (batchOf t) r) (upTo (tileOf t).val))
    (h1 : xs1 (ix2 r 0) = Zs (score (Parr m c) (batchOf t) r) (upTo (tileOf t).val)
        (mxS (score (Parr m c) (batchOf t) r) (upTo (tileOf t).val)))
    (h2 : ∀ q, xs2 (ix2 r q) = Ws (score (Parr m c) (batchOf t) r) (feat (Xarr m c) (batchOf t) q) (upTo (tileOf t).val)
        (mxS (score (Parr m c) (batchOf t) r) (upTo (tileOf t).val))) :
    k0_pay8 (F := Ideal) (iblk m c 0 t) xs0 (ix2 r 0) = mxS (score (Parr m c) (batchOf t) r) (upTo ((tileOf t).val + 1))
    ∧ k0_pay11 (F := Ideal) (iblk m c 0 t) xs0 xs0 xs1 (ix2 r 0)
        = Zs (score (Parr m c) (batchOf t) r) (upTo ((tileOf t).val + 1)) (mxS (score (Parr m c) (batchOf t) r) (upTo ((tileOf t).val + 1)))
    ∧ ∀ q : Fin 512, k0_pay13 (F := Ideal) (iblk m c 0 t) xs0 xs0 xs2 (ix2 r q)
          + ∑ n : Fin 8192, k0_pay12 (F := Ideal) (iblk m c 0 t) xs0 (ix2 r n) * iblk m c 1 t (ix3 0 q n)
        = Ws (score (Parr m c) (batchOf t) r) (feat (Xarr m c) (batchOf t) q) (upTo ((tileOf t).val + 1))
            (mxS (score (Parr m c) (batchOf t) r) (upTo ((tileOf t).val + 1))) :=
  tile_step (tileOf t) (score (Parr m c) (batchOf t) r) (score_real m hpre c (batchOf t) r)
    (fun q => feat (Xarr m c) (batchOf t) q) (fun q => feat_real m hpre c (batchOf t) q)
    (iblk m c 0 t) (iblk m c 1 t) r (fun n => pblk_at m c t r n) (fun q n => fblk_at m c t q n) xs0 xs1 xs2 h0 h1 h2

include hpre in
/-- A batch's first tile: the reset values are the three quantities over no position. -/
theorem holds_first (c : Dev nD) (r : Fin 19) (t : Fin cfg0.N) (h0 : t.val % 4 = 0) :
    Holds m c r t ((tileOf t).val + 1) (outsAt0 (F := Ideal) m c t.val t.isLt) := by
  have hj : (tileOf t).val = 0 := h0
  obtain ⟨e0, e1, e2⟩ := point_step m hpre c t r (k0_pay4 (F := Ideal)) (k0_pay5 (F := Ideal)) (k0_pay6 (F := Ideal))
    (by rw [pay4_at, hj, upTo_zero]; simp [mxS])
    (by rw [pay5_at, hj, upTo_zero]; simp [Zs])
    (fun q => by rw [pay6_at, hj, upTo_zero]; simp [Ws])
  rw [outsAt0_A m c t h0]
  refine ⟨?_, ?_, fun q => ?_⟩
  · rw [afterA_max]; exact e0
  · rw [afterA_norm]; exact e1
  · rw [afterA_acc]; exact e2 q

/-- The point before a point that is not a batch's first tile is in the same batch … -/
theorem batchOf_succ (n : ℕ) (hn : n + 1 < cfg0.N) (h0 : ¬(n + 1) % 4 = 0) :
    batchOf ⟨n, Nat.lt_of_succ_lt hn⟩ = batchOf ⟨n + 1, hn⟩ :=
  Fin.ext (by show n / 4 = (n + 1) / 4; omega)

/-- … and on the tile before. -/
theorem tileOf_succ (n : ℕ) (hn : n + 1 < cfg0.N) (h0 : ¬(n + 1) % 4 = 0) :
    (tileOf ⟨n, Nat.lt_of_succ_lt hn⟩).val + 1 = (tileOf ⟨n + 1, hn⟩).val := by
  show n % 4 + 1 = (n + 1) % 4; omega

include hpre in
/-- A later tile: from what the point before left. -/
theorem holds_next (c : Dev nD) (r : Fin 19) (n : ℕ) (hn : n + 1 < cfg0.N) (h0 : ¬(n + 1) % 4 = 0)
    (ih : Holds m c r ⟨n, Nat.lt_of_succ_lt hn⟩ ((tileOf ⟨n, Nat.lt_of_succ_lt hn⟩).val + 1)
      (outsAt0 (F := Ideal) m c n (Nat.lt_of_succ_lt hn))) :
    Holds m c r ⟨n + 1, hn⟩ ((tileOf ⟨n + 1, hn⟩).val + 1) (outsAt0 (F := Ideal) m c (n + 1) hn) := by
  unfold Holds at ih
  rw [batchOf_succ n hn h0, tileOf_succ n hn h0] at ih
  obtain ⟨i0, i1, i2⟩ := ih
  have i0' : (prevAt (F := Ideal) m c ⟨n + 1, hn⟩).2.1 (ix2 r 0) = _ := i0
  have i1' : (prevAt (F := Ideal) m c ⟨n + 1, hn⟩).2.2.1 (ix2 r 0) = _ := i1
  have i2' : ∀ q : Fin 512, (prevAt (F := Ideal) m c ⟨n + 1, hn⟩).2.2.2 (ix2 r q) = _ := i2
  obtain ⟨e0, e1, e2⟩ := point_step m hpre c ⟨n + 1, hn⟩ r _ _ _ i0' i1' i2'
  by_cases h1 : (n + 1) % 4 = 3
  · rw [show outsAt0 (F := Ideal) m c (n + 1) hn = _ from outsAt0_C m c ⟨n + 1, hn⟩ h0 h1]
    refine ⟨?_, ?_, fun q => ?_⟩
    · rw [afterC_max]; exact e0
    · rw [afterC_norm]; exact e1
    · rw [afterC_acc]; exact e2 q
  · rw [show outsAt0 (F := Ideal) m c (n + 1) hn = _ from outsAt0_B m c ⟨n + 1, hn⟩ h0 h1]
    refine ⟨?_, ?_, fun q => ?_⟩
    · rw [afterB_max]; exact e0
    · rw [afterB_norm]; exact e1
    · rw [afterB_acc]; exact e2 q

include hpre in
/-- After every point the scratch buffers hold the three quantities over the positions of the batch's tiles so far. -/
theorem holds_at (c : Dev nD) (r : Fin 19) : ∀ (n : ℕ) (hn : n < cfg0.N),
    Holds m c r ⟨n, hn⟩ ((tileOf ⟨n, hn⟩).val + 1) (outsAt0 (F := Ideal) m c n hn) := by
  intro n
  induction n with
  | zero => intro hn; exact holds_first m hpre c r ⟨0, hn⟩ (Nat.zero_mod 4)
  | succ n ih =>
    intro hn
    by_cases h0 : (n + 1) % 4 = 0
    · exact holds_first m hpre c r ⟨n + 1, hn⟩ h0
    · exact holds_next m hpre c r n hn h0 (ih (Nat.lt_of_succ_lt hn))

include hpre in
theorem scratch_at (c : Dev nD) (t : Fin cfg0.N) (r : Fin 19) :
    (outsAt0 (F := Ideal) m c t.val t.isLt).2.1 (ix2 r 0) = mxS (score (Parr m c) (batchOf t) r) (upTo ((tileOf t).val + 1))
    ∧ (outsAt0 (F := Ideal) m c t.val t.isLt).2.2.1 (ix2 r 0) = Zs (score (Parr m c) (batchOf t) r) (upTo ((tileOf t).val + 1)) (mxS (score (Parr m c) (batchOf t) r) (upTo ((tileOf t).val + 1)))
    ∧ ∀ q : Fin 512, (outsAt0 (F := Ideal) m c t.val t.isLt).2.2.2 (ix2 r q) = Ws (score (Parr m c) (batchOf t) r) (feat (Xarr m c) (batchOf t) q) (upTo ((tileOf t).val + 1)) (mxS (score (Parr m c) (batchOf t) r) (upTo ((tileOf t).val + 1))) :=
  holds_at m hpre c r t.val t.isLt

include hpre in
/-- After a batch's last tile the output's buffer holds the result. -/
theorem out_at (c : Dev nD) (t : Fin cfg0.N) (h1 : t.val % 4 = 3) (q : Fin 512) (r : Fin 19) :
    (outsAt0 (F := Ideal) m c t.val t.isLt).1 (ix3 0 q r) = G (Xarr m c) (Parr m c) (ix4 (batchOf t) q r 0) := by
  have h0 : ¬t.val % 4 = 0 := by omega
  obtain ⟨_, i1, i2⟩ := scratch_at m hpre c t r
  have hdiv : (outsAt0 (F := Ideal) m c t.val t.isLt).1 (ix3 0 q r)
      = Ideal.div ((outsAt0 (F := Ideal) m c t.val t.isLt).2.2.2 (ix2 r q)) ((outsAt0 (F := Ideal) m c t.val t.isLt).2.2.1 (ix2 r 0)) := by
    rw [outsAt0_C m c t h0 h1]
    exact afterC_out m c t h0 h1 _ _ _ q r
  have hj : (tileOf t).val + 1 = 4 := by show t.val % 4 + 1 = 4; omega
  rw [hdiv, i2 q, i1, hj, upTo_four,
    Ws_div_Zs _ _ (score_real m hpre c (batchOf t) r) (feat_real m hpre c (batchOf t) q) Finset.univ_nonempty]
  rfl

end Cert.KernelIdeal.Body
-- ==== Proof.KI.Final.lean ====
/-
  From the output's blocks to the whole result array. The output window's block of point t is rows [t / 4] of the result
  array [8, 512, 19], whole in the other two axes, and it is written back on each batch's last tile only. After that tile
  the output's buffer holds, at (q, r), the batch's weighted sum of channel q and class r over its normaliser, which is
  the specification's value at (batch, q, r, 0). The eight flushed blocks cover the array, so after the region the array
  holds the specification's values everywhere.
-/
import proofs.«431202_j4664334483623_3_alg».proof.Defs
import proofs.«431202_j4664334483623_3_alg».proof.Proof.Gen.Pre_finite_inputs
import proofs.«431202_j4664334483623_3_alg».proof.Proof.KI.Frame
import proofs.«431202_j4664334483623_3_alg».proof.Proof.KI.Blocks
import proofs.«431202_j4664334483623_3_alg».proof.Proof.KI.Invariant
import proofs.«431202_j4664334483623_3_alg».proof.Proof.Pool.Spec
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem Cert.Pool

variable (m : (ℓ : Loc nD τ sig) → Buf (Elt Ideal) ℓ) (hpre : Cert.Pre_KernelIdeal m)

/-- The region's result array [8, 512, 19]: entry (b, q, r) is the specification's value at (b, q, r, 0). -/
def resArr (c : Dev nD) : S8x512x19.Idx → EReal := fun i =>
  G (m ((c : Thread nD τ).loc main_arg0)) (m ((c : Thread nD τ).loc main_arg1)) (ix4 (i 0) (i 1) (i 2) 0)

/-- The output's window is at block index (t / 4, 0, 0) at point t. -/
theorem index_out : ∀ t : Fin cfg0.N,
    win0_2.index t 0 = t.val / 4 ∧ win0_2.index t 1 = 0 ∧ win0_2.index t 2 = 0 :=
  (by decide +kernel : ∀ t : Fin grid0.N,
    win0_2.index t 0 = t.val / 4 ∧ win0_2.index t 1 = 0 ∧ win0_2.index t 2 = 0)

include hpre in
/-- After a batch's last tile the output's buffer holds, at every index, the batch's rows of the result array. -/
theorem out_block_apply (c : Dev nD) (t : Fin cfg0.N) (h3 : t.val % 4 = 3) (y : S1x512x19.Idx) :
    (outsAt0 (F := Ideal) m c t.val t.isLt).1 y = resArr m c (ix3 (batchOf t) (y 1) (y 2)) := by
  obtain ⟨z, q, r, rfl⟩ : ∃ (z : Fin 1) (q : Fin 512) (r : Fin 19), y = ix3 z q r := ⟨y 0, y 1, y 2, eq_ix3 y⟩
  obtain rfl : z = 0 := Subsingleton.elim _ _
  exact out_at m hpre c t h3 q r

/-- Contents X of the output's buffer that are, at every index, the batch's rows of an array R are what the
    write-back's block of R reads: the block of point t is at block index (t / 4, 0, 0) and has sizes (1, 512, 19). -/
theorem cut_eq_read (R : S8x512x19.Idx → EReal) (X : Vec Ideal S1x512x19 .f32) (t : Fin cfg0.N)
    (hX : ∀ y : S1x512x19.Idx, X y = R (ix3 (batchOf t) (y 1) (y 2))) :
    (cfg0.win 2).cut (grid0.coords t) X = ((cfg0.win 2).blk t).view.read (Elt Ideal) R := by
  obtain ⟨i0, i1, i2⟩ := index_out t
  funext y
  rw [View.read_apply]
  show X ((cfg0.win 2).xinj (grid0.coords t) y) = R (((cfg0.win 2).blk t).view.emb y)
  rw [hX]
  refine congrArg R (funext fun a => Fin.ext ?_)
  match a with
  | ⟨0, h⟩ =>
    have hy : (y ⟨0, h⟩).val < 1 := (y ⟨0, h⟩).isLt
    show t.val / 4 = win0_2.index t 0 * 1 + 1 * (y ⟨0, h⟩).val
    rw [i0]; omega
  | ⟨1, h⟩ =>
    show (y ⟨1, h⟩).val = win0_2.index t 1 * 512 + 1 * (y ⟨1, h⟩).val
    rw [i1]; omega
  | ⟨2, h⟩ =>
    show (y ⟨2, h⟩).val = win0_2.index t 2 * 19 + 1 * (y ⟨2, h⟩).val
    rw [i2]; omega

include hpre in
/-- What a write-back writes is the block of the result array at the point's block index. -/
theorem flushed_eq (c : Dev nD) (t : Fin cfg0.N) (hf : (cfg0.win 2).flush t = true) :
    (dats (F := Ideal) m 0 c).flushed 2 t = ((cfg0.win 2).blk t).view.read (Elt Ideal) (resArr m c) := by
  have h3 : t.val % 4 = 3 := (flush0_2 t).mp hf
  show (cfg0.win 2).cut (grid0.coords t) ((dats (F := Ideal) m 0 c).after 2 t) = _
  rw [after0_2]
  exact cut_eq_read (resArr m c) _ t (out_block_apply m hpre c t h3)

include hpre in
/-- After the region the result array holds the specification's values. -/
theorem final_out (c : Dev nD) : (dats (F := Ideal) m 0 c).arrAt 2 cfg0.N = resArr m c :=
  (dats (F := Ideal) m 0 c).arrAt_eq_of_cover 2 (resArr m c) (flushed_eq m hpre c) fun i => by
    have hN : cfg0.N = 32 := N_0
    have h0 : (i 0 : ℕ) < 8 := (i 0).isLt
    have h1 : (i 1 : ℕ) < 512 := (i 1).isLt
    have h2 : (i 2 : ℕ) < 19 := (i 2).isLt
    have ht : 4 * (i 0 : ℕ) + 3 < cfg0.N := by omega
    obtain ⟨j0, j1, j2⟩ := index_out ⟨4 * (i 0 : ℕ) + 3, ht⟩
    refine ⟨⟨4 * (i 0 : ℕ) + 3, ht⟩, (flush0_2 _).mpr (by show (4 * (i 0 : ℕ) + 3) % 4 = 3; omega), ?_⟩
    show i ∈ ((View.whole main_v2).slice (win0_2.rect ⟨4 * (i 0 : ℕ) + 3, ht⟩)).set
    rw [View.set_slice_whole, Rect.mem_set_unit]
    intro a
    match a with
    | ⟨0, _⟩ =>
      show win0_2.index ⟨4 * (i 0 : ℕ) + 3, ht⟩ 0 * 1 ≤ (i 0 : ℕ)
        ∧ (i 0 : ℕ) < win0_2.index ⟨4 * (i 0 : ℕ) + 3, ht⟩ 0 * 1 + 1
      rw [j0]; show (4 * (i 0 : ℕ) + 3) / 4 * 1 ≤ (i 0 : ℕ) ∧ (i 0 : ℕ) < (4 * (i 0 : ℕ) + 3) / 4 * 1 + 1; omega
    | ⟨1, _⟩ =>
      show win0_2.index ⟨4 * (i 0 : ℕ) + 3, ht⟩ 1 * 512 ≤ (i 1 : ℕ)
        ∧ (i 1 : ℕ) < win0_2.index ⟨4 * (i 0 : ℕ) + 3, ht⟩ 1 * 512 + 512
      rw [j1]; omega
    | ⟨2, _⟩ =>
      show win0_2.index ⟨4 * (i 0 : ℕ) + 3, ht⟩ 2 * 19 ≤ (i 2 : ℕ)
        ∧ (i 2 : ℕ) < win0_2.index ⟨4 * (i 0 : ℕ) + 3, ht⟩ 2 * 19 + 19
      rw [j2]; omega

end Cert.KernelIdeal.Body

end
-- ==== Proof.KI.Value.lean ====
/-
  The idealized kernel program's run, read: it ends with its result array at the specification's function of its two
  argument arrays, the arguments unchanged. After the region the program's one remaining line appends a unit axis to the
  region's result array [8, 512, 19], so the result at (b, q, r, 0) is the array's entry (b, q, r).
-/
import proofs.«431202_j4664334483623_3_alg».proof.Proof.KI.Final
import Idealize.ShloMosaic.Lib.StableHlo.Run
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem Cert.Pool

variable (m : (ℓ : Loc nD τ sig) → Buf (Elt Ideal) ℓ) (hpre : Cert.Pre_KernelIdeal m) (ρ : Dev nD → PrngReg)

include hpre in
/-- What the line after the region leaves in the program's result buffer: the specification's values. -/
theorem tail_eq (c : Dev nD) :
    Pipeline.afterTail₀ cfgs (dats (F := Ideal) m) 0 (V0 m) [hostOps1] c main_v3
      = G (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, final_out m hpre c]
  funext i
  obtain ⟨b, q, r, z, rfl⟩ : ∃ (b : Fin 8) (q : Fin 512) (r : Fin 19) (z : Fin 1), i = ix4 b q r z := ⟨i 0, i 1, i 2, i 3, eq_ix4 i⟩
  obtain rfl : z = 0 := Subsingleton.elim _ _
  refine (broadcastInDim_apply _ bcast_S8x512x19_S8x512x19x1_0_1_2 (resArr m c) _ (ix3 b q r) (fun a => match a with
    | ⟨0, _⟩ => by show b.val = if (8 : Nat) = 1 then 0 else b.val; rw [if_neg (by decide)]
    | ⟨1, _⟩ => by show q.val = if (512 : Nat) = 1 then 0 else q.val; rw [if_neg (by decide)]
    | ⟨2, _⟩ => by show r.val = if (19 : Nat) = 1 then 0 else r.val; rw [if_neg (by decide)])).trans ?_
  rfl

include hpre in
/-- The run: every weakly fair execution terminates with the result at the specification's values and the two argument
    arrays as launched. -/
theorem kernel_run : θ_run defs (onTc (τ := τ) (main (F := Ideal))) ⟨m, fun _ => 0, ρ⟩ (fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_eq m hpre c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Body

end
-- ==== Proof.Pool.Ref.lean ====
/-
  The reference program computes G.

  The reference reads the score array P of shape [8, 19, 128, 256] and the feature array X of shape [8, 512, 128, 256]
  with the two spatial axes flattened to one axis of 32768 positions (position n standing for (n / 256, n % 256)),
  multiplies the scores by one, takes for each (b, k) the largest score M of the row (a reduction with the maximum
  from −∞, and once more the maximum with −∞), forms e n = exp (score n − M), the row's sum L of the e n (from 0),
  the weights e n / L, contracts the weights with the features over n, and lays the result out as [8, 512, 19, 1].
  Each stage is read here at an index built from literal coordinates; composed, they are the specification G.
-/
import proofs.«431202_j4664334483623_3_alg».proof.Defs
import proofs.«431202_j4664334483623_3_alg».proof.Proof.Gen.ReferenceIdeal.Run
import proofs.«431202_j4664334483623_3_alg».proof.Proof.Gen.ReferenceIdeal.Read
import proofs.«431202_j4664334483623_3_alg».proof.Proof.Gen.Pre_finite_inputs
import proofs.«431202_j4664334483623_3_alg».proof.Proof.Pool.Spec
import Idealize.ShloMosaic.Lib.ValueIdx
import Idealize.ShloMosaic.Lib.IdealHost
import Idealize.ShloMosaic.PureOps.Ideal.Laws
import Idealize.ShloMosaic.PureOps.Reduce

noncomputable section

open scoped BigOperators

namespace Cert.Pool

open Idealize.ShloMosaic Idealize.ShloMosaic.ValueIdx Idealize.ShloMosaic.TcCoe Idealize.SL.Sem
open Cert.ReferenceIdeal Cert.ReferenceIdeal.Gen Cert.ReferenceIdeal.Read

/-! ## Two words and the maximum's fold -/

/-- The word 0xFF800000 denotes −∞, the least extended real. -/
theorem ofBits_negInf : Ideal.ofBits .f32 0xFF800000#32 = ⊥ := by simp [Ideal.ofBits, Ideal.ieee]

/-- Folding the maximum from the least element is the supremum. -/
theorem fold_maximumf_bot {ι : Type} (s : Finset ι) (f : ι → EReal) :
    s.fold (FloatOps.maximumf (F := Ideal) (φ := .f32)) ⊥ f = s.sup f := rfl

/-! ## The scores and the features at a flat position -/

/-- One times the reshaped score array, at (b, k, n), is the score of class k at flat position n. -/
theorem scaled_apply (P : SP.Idx → EReal) (b : Fin 8) (k : Fin 19) (n : Fin 32768) :
    val_main_v3 (F := Ideal) P (ix3 b k n) = score P b k n := by
  rw [val_main_v3_apply, val_main_v2_apply, val_main_cst_apply, val_main_v0_apply]
  simp only [Ideal.mulf_def, Ideal.ofBits_def, Ideal.ofBits_one_f32, one_mul]
  unfold score
  refine congrArg P (funext fun a => Fin.ext ?_)
  have hb := b.isLt; have hk := k.isLt; have hn := n.isLt
  match a with
  | ⟨0, _⟩ => show ((b.val * 19 + k.val) * 32768 + n.val) / 622592 = b.val; omega
  | ⟨1, _⟩ => show ((b.val * 19 + k.val) * 32768 + n.val) / 32768 % 19 = k.val; omega
  | ⟨2, _⟩ => show ((b.val * 19 + k.val) * 32768 + n.val) / 256 % 128 = n.val / 256; omega
  | ⟨3, _⟩ => show ((b.val * 19 + k.val) * 32768 + n.val) % 256 = n.val % 256; omega

/-- The reshaped feature array at (b, c, n) is the feature of channel c at flat position n. -/
theorem feat_apply (X : SF.Idx → EReal) (b : Fin 8) (c : Fin 512) (n : Fin 32768) :
    val_main_v1 (F := Ideal) X (ix3 b c n) = feat X b c n := by
  rw [val_main_v1_apply]
  unfold feat
  refine congrArg X (funext fun a => Fin.ext ?_)
  have hb := b.isLt; have hc := c.isLt; have hn := n.isLt
  match a with
  | ⟨0, _⟩ => show ((b.val * 512 + c.val) * 32768 + n.val) / 16777216 = b.val; omega
  | ⟨1, _⟩ => show ((b.val * 512 + c.val) * 32768 + n.val) / 32768 % 512 = c.val; omega
  | ⟨2, _⟩ => show ((b.val * 512 + c.val) * 32768 + n.val) / 256 % 128 = n.val / 256; omega
  | ⟨3, _⟩ => show ((b.val * 512 + c.val) * 32768 + n.val) % 256 = n.val % 256; omega

/-! ## The row's largest score -/

/-- The spatial axis of an [8, 19, 32768] array reduces onto [8, 19]. -/
theorem red2 : S8x19x32768.Reduces [2] S8x19 := by decide

/-- The reduced index (b, k) with position n put back on the dropped axis is (b, k, n). -/
theorem lift_red2 (b : Fin 8) (k : Fin 19) (n : Fin 32768) : red2.lift (ix2 b k) n = ix3 b k n := by
  funext c
  apply Fin.ext
  match c with
  | ⟨0, _⟩ => rfl
  | ⟨1, _⟩ => rfl
  | ⟨2, _⟩ => rfl

/-- The maximum with −∞ of the reduction from −∞ of the scaled scores, at (b, k), is the row's largest score. -/
theorem rowMax_apply (P : SP.Idx → EReal) (b : Fin 8) (k : Fin 19) :
    val_main_v6 (F := Ideal) P (ix2 b k) = rowMax P b k := by
  rw [val_main_v6_apply, val_main_v5_apply, val_main_cst_1_apply]
  unfold val_main_v4
  rw [Host.reduce_eq_fold_single FloatOps.maximumf _ _ reducesTo_S8x19x32768_S8x19_d2 red2 h_S_ (ix2 b k)]
  rw [val_main_cst_0_apply]
  simp only [Ideal.maximumf_def, Ideal.ofBits_def, ofBits_negInf]
  have hf : (val_main_v3 (F := Ideal) P ∘ red2.lift (ix2 b k)) = score P b k :=
    funext fun n => (congrArg (val_main_v3 (F := Ideal) P) (lift_red2 b k n)).trans (scaled_apply P b k n)
  rw [hf]
  show max ⊥ (Finset.fold (FloatOps.maximumf (F := Ideal) (φ := .f32)) ⊥ (score P b k) (Finset.univ : Finset (Fin 32768))) = rowMax P b k
  rw [fold_maximumf_bot, max_eq_right bot_le]
  rfl

/-! ## The weights -/

/-- The exponential of the scaled score's distance below the row's largest, at (b, k, n). -/
theorem expo_apply (P : SP.Idx → EReal) (b : Fin 8) (k : Fin 19) (n : Fin 32768) :
    val_main_v10 (F := Ideal) P (ix3 b k n) = expo P b k n := by
  rw [val_main_v10_apply, val_main_v9_apply, val_main_v8_apply, val_main_v7_apply]
  rw [show idx_main_v7 (idx_main_v8 (ix3 b k n)) = ix2 b k from
    funext fun a => Fin.ext (by match a with | ⟨0, _⟩ => rfl | ⟨1, _⟩ => rfl)]
  rw [rowMax_apply, scaled_apply]
  simp only [Ideal.hostUnary_exp_def, Ideal.subf_def]
  rfl

/-- The sum from zero of the exponentials over the row, at (b, k), is the row's normaliser. -/
theorem rowSum_apply (P : SP.Idx → EReal) (b : Fin 8) (k : Fin 19) :
    val_main_v11 (F := Ideal) P (ix2 b k) = rowSum P b k := by
  rw [val_main_v11_apply, val_main_cst_2_apply]
  simp only [Ideal.ofBits_def, Ideal.ofBits_zero_f32, zero_add]
  unfold rowSum
  refine Finset.sum_congr rfl fun n _ => ?_
  rw [show idx_main_v11 (ix2 b k) n = ix3 b k n from
    funext fun a => Fin.ext (by match a with | ⟨0, _⟩ => rfl | ⟨1, _⟩ => rfl | ⟨2, _⟩ => rfl)]
  exact expo_apply P b k n

/-- The quotient of the exponential by the row's normaliser, at (b, k, n). -/
theorem weight_apply (P : SP.Idx → EReal) (b : Fin 8) (k : Fin 19) (n : Fin 32768) :
    val_main_v14 (F := Ideal) P (ix3 b k n) = Ideal.div (expo P b k n) (rowSum P b k) := by
  rw [val_main_v14_apply, val_main_v13_apply, val_main_v12_apply]
  rw [show idx_main_v12 (idx_main_v13 (ix3 b k n)) = ix2 b k from
    funext fun a => Fin.ext (by match a with | ⟨0, _⟩ => rfl | ⟨1, _⟩ => rfl)]
  rw [rowSum_apply, expo_apply, Ideal.hostDivf_def]

/-! ## The contraction, laid out as the result -/

/-- The reference's result is G of the two arrays: at (b, c, k, 0) the contraction over n of the weight at (b, k, n)
    with the feature at (b, c, n). -/
theorem ref_eq_G (X : SF.Idx → EReal) (P : SP.Idx → EReal) : val_main_v17 (F := Ideal) X P = G X P := by
  funext i
  obtain ⟨b, c, k, z, rfl⟩ : ∃ (b : Fin 8) (c : Fin 512) (k : Fin 19) (z : Fin 1), i = ix4 b c k z :=
    ⟨i 0, i 1, i 2, i 3, eq_ix4 i⟩
  rw [val_main_v17_apply, val_main_v16_apply, val_main_v15_apply]
  show _ = ∑ n : Fin 32768, Ideal.div (expo P b k n) (rowSum P b k) * feat X b c n
  refine Finset.sum_congr rfl fun n _ => ?_
  rw [show lidx_main_v15 (idx_main_v16 (idx_main_v17 (ix4 b c k z))) n = ix3 b k n from
        funext fun a => Fin.ext (by match a with | ⟨0, _⟩ => rfl | ⟨1, _⟩ => rfl | ⟨2, _⟩ => rfl),
      show ridx_main_v15 (idx_main_v16 (idx_main_v17 (ix4 b c k z))) n = ix3 b c n from
        funext fun a => Fin.ext (by match a with | ⟨0, _⟩ => rfl | ⟨1, _⟩ => rfl | ⟨2, _⟩ => rfl)]
  rw [weight_apply, feat_apply]

/-! ## The run -/

/-- Every weakly fair execution of the reference terminates with its result buffer at G of the launch contents of its
    two arguments, and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v17)
          = Cert.Pool.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v17_eq _ _).trans (ref_eq_G _ _)), (h c).2⟩)
    (Cert.ReferenceIdeal.Value.run (F := Ideal) m ρ)

/-- The reference's frame: it terminates with its arguments unchanged. -/
theorem frame_ri : Cert.frame_ReferenceIdeal :=
  fun m ρ _ => (θ_run Cert.ReferenceIdeal.defs _ _).mono (fun _ h c => (h c).2) (Cert.ReferenceIdeal.Value.run (F := Ideal) m ρ)

end Cert.Pool

end
-- ==== Proof.lean ====
/-
  The pooling kernel against its reference, over the extended reals.

  Both programs take features x : [8, 512, 128, 256] and scores p : [8, 19, 128, 256] and return [8, 512, 19, 1]: for a
  batch b and a class k the scores over the 32768 spatial positions are turned into softmax weights, and the result at
  (b, c, k, 0) is the weighted sum of the features of channel c. The reference computes the row's largest score, the
  exponentials, their sum and the quotients in one pass each and contracts with the features. The kernel walks the spatial
  axis in four tiles per batch, carrying a running maximum M, a running normaliser L and running weighted sums A, and on
  each tile rescales L and A by exp (M_old - M_new) before adding the tile's exponentials and products; on the batch's last
  tile it stores A / L, transposed. With every input a real number, exp (M_old - M_new) * exp (s - M_old) = exp (s - M_new),
  so after each tile L and A are the normaliser and weighted sums of the positions seen so far taken against the current
  maximum, and after the last tile A / L is the sum over all positions of (exp (s - M) / L) * x: the reference's value. On
  the first tile the running maximum starts at -inf and the rescaling factor is exp (-inf) = 0 against L = A = 0.

  Here: the three frames (the kernel's and its idealization's from the body's three runs launched over the grid; the
  reference's from its run), the idealization's ledger is empty, and the equivalence from the two runs stated at one
  specification G (Pool/Spec.lean).
-/
import proofs.«431202_j4664334483623_3_alg».proof.Defs
import proofs.«431202_j4664334483623_3_alg».proof.Proof.Gen.Kernel
import proofs.«431202_j4664334483623_3_alg».proof.Proof.Gen.KernelIdeal
import proofs.«431202_j4664334483623_3_alg».proof.Proof.Gen.ReferenceIdeal
import proofs.«431202_j4664334483623_3_alg».proof.Proof.Gen.Pre_finite_inputs
import proofs.«431202_j4664334483623_3_alg».proof.Proof.K.Frame
import proofs.«431202_j4664334483623_3_alg».proof.Proof.KI.Value
import proofs.«431202_j4664334483623_3_alg».proof.Proof.Pool.Ref
import Idealize.ShloMosaic.Adequacy
import Idealize.ShloMosaic.Init

noncomputable section

namespace Cert.Proof

open Idealize.ShloMosaic Idealize.SL.Sem

/-- The word-level kernel program runs to its end and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The idealization rewrote no operation. -/
theorem preserves : Cert.preserves_Kernel_KernelIdeal := trivial

/-- From memories agreeing on the arguments both idealized programs end with the specification's values of those
    arguments in their result arrays. -/
theorem algebraic : Cert.algebraic_KernelIdeal_ReferenceIdeal := by
  intro m ρ m' ρ' hpre hagree
  refine ⟨fun c => Cert.Pool.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Body.kernel_run m hpre ρ, ?_⟩
  refine (θ_run Cert.ReferenceIdeal.defs _ _).mono (fun _ h c => ⟨(h c).1.trans ?_, (h c).2⟩) (Cert.Pool.ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.Pool.frame_ri, preserves, algebraic⟩

end Cert.Proof

end
